-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S2000000 : Shape := ⟨1, ![2000000]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : IVec S2000000 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  main_v3
-- ==== Kernel.lean ====
abbrev S2000000x64 : Shape := ⟨2, ![2000000, 64]⟩
abbrev S2000000 : Shape := ⟨1, ![2000000]⟩
abbrev S_ : Shape := ⟨0, ![]⟩
abbrev S2002944x64 : Shape := ⟨2, ![2002944, 64]⟩
abbrev S2002944 : Shape := ⟨1, ![2002944]⟩
abbrev S1x2002944 : Shape := ⟨2, ![1, 2002944]⟩
abbrev S64x102400 : Shape := ⟨2, ![64, 102400]⟩
abbrev S1x4096 : Shape := ⟨2, ![1, 4096]⟩
abbrev S4096x64 : Shape := ⟨2, ![4096, 64]⟩
abbrev S64x4096 : Shape := ⟨2, ![64, 4096]⟩
abbrev S256x1 : Shape := ⟨2, ![256, 1]⟩
abbrev S256x4096 : Shape := ⟨2, ![256, 4096]⟩
abbrev S64x256 : Shape := ⟨2, ![64, 256]⟩
abbrev S64x100000 : Shape := ⟨2, ![64, 100000]⟩
abbrev S100000x64 : Shape := ⟨2, ![100000, 64]⟩

abbrev nBuf : Space → Nat
  | .hbm => 13
  | .vmem => 6
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S2000000x64, .bf16⟩
  | .hbm, ⟨3, _⟩ => ⟨S_, .i32⟩
  | .hbm, ⟨4, _⟩ => ⟨S_, .bf16⟩
  | .hbm, ⟨5, _⟩ => ⟨S2002944x64, .bf16⟩
  | .hbm, ⟨6, _⟩ => ⟨S_, .i32⟩
  | .hbm, ⟨7, _⟩ => ⟨S_, .i32⟩
  | .hbm, ⟨8, _⟩ => ⟨S2002944, .i32⟩
  | .hbm, ⟨9, _⟩ => ⟨S1x2002944, .i32⟩
  | .hbm, ⟨10, _⟩ => ⟨S64x102400, .f32⟩
  | .hbm, ⟨11, _⟩ => ⟨S64x100000, .f32⟩
  | .hbm, ⟨12, _⟩ => ⟨S100000x64, .f32⟩
  | .local _ .vmem, ⟨0, _⟩ => ⟨S1x4096, .i32⟩
  | .local _ .vmem, ⟨1, _⟩ => ⟨S1x4096, .i32⟩
  | .local _ .vmem, ⟨2, _⟩ => ⟨S4096x64, .bf16⟩
  | .local _ .vmem, ⟨3, _⟩ => ⟨S4096x64, .bf16⟩
  | .local _ .vmem, ⟨4, _⟩ => ⟨S64x4096, .f32⟩
  | .local _ .vmem, ⟨5, _⟩ => ⟨S64x4096, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 489], ![false, false]⟩

def k0_mult1 : BitVec 32 :=
  let c0_i32_4 : BitVec 32 := 0#32
  let c256_i32 : BitVec 32 := 256#32
  let v7 : BitVec 32 := Scalar.muli c0_i32_4 c256_i32
  v7
def k0_off1 (c0_i32_4 : BitVec 32) : Fin 2 → Nat :=
  let c0_5 : Index := 0#32
  let c256_i32 : BitVec 32 := 256#32
  let v7 : BitVec 32 := Scalar.muli c0_i32_4 c256_i32
  let v8 : BitVec 32 := v7
  let v21 : Index := Scalar.indexCast v8
  ![0, v21.toNat]
def k0_mult2 : BitVec 32 :=
  let c1_i32 : BitVec 32 := 1#32
  let c256_i32_7 : BitVec 32 := 256#32
  let v27 : BitVec 32 := Scalar.muli c1_i32 c256_i32_7
  v27
def k0_mult3 : BitVec 32 :=
  let c2_i32 : BitVec 32 := 2#32
  let c256_i32_12 : BitVec 32 := 256#32
  let v47 : BitVec 32 := Scalar.muli c2_i32 c256_i32_12
  v47
def k0_mult4 : BitVec 32 :=
  let c3_i32 : BitVec 32 := 3#32
  let c256_i32_17 : BitVec 32 := 256#32
  let v67 : BitVec 32 := Scalar.muli c3_i32 c256_i32_17
  v67
def k0_mult5 : BitVec 32 :=
  let c4_i32 : BitVec 32 := 4#32
  let c256_i32_22 : BitVec 32 := 256#32
  let v87 : BitVec 32 := Scalar.muli c4_i32 c256_i32_22
  v87
def k0_mult6 : BitVec 32 :=
  let c5_i32 : BitVec 32 := 5#32
  let c256_i32_27 : BitVec 32 := 256#32
  let v107 : BitVec 32 := Scalar.muli c5_i32 c256_i32_27
  v107
def k0_mult7 : BitVec 32 :=
  let c6_i32 : BitVec 32 := 6#32
  let c256_i32_32 : BitVec 32 := 256#32
  let v127 : BitVec 32 := Scalar.muli c6_i32 c256_i32_32
  v127
def k0_mult8 : BitVec 32 :=
  let c7_i32 : BitVec 32 := 7#32
  let c256_i32_37 : BitVec 32 := 256#32
  let v147 : BitVec 32 := Scalar.muli c7_i32 c256_i32_37
  v147
def k0_mult9 : BitVec 32 :=
  let c8_i32 : BitVec 32 := 8#32
  let c256_i32_42 : BitVec 32 := 256#32
  let v167 : BitVec 32 := Scalar.muli c8_i32 c256_i32_42
  v167
def k0_mult10 : BitVec 32 :=
  let c9_i32 : BitVec 32 := 9#32
  let c256_i32_47 : BitVec 32 := 256#32
  let v187 : BitVec 32 := Scalar.muli c9_i32 c256_i32_47
  v187
def k0_mult11 : BitVec 32 :=
  let c10_i32 : BitVec 32 := 10#32
  let c256_i32_52 : BitVec 32 := 256#32
  let v207 : BitVec 32 := Scalar.muli c10_i32 c256_i32_52
  v207
def k0_mult12 : BitVec 32 :=
  let c11_i32 : BitVec 32 := 11#32
  let c256_i32_57 : BitVec 32 := 256#32
  let v227 : BitVec 32 := Scalar.muli c11_i32 c256_i32_57
  v227
def k0_mult13 : BitVec 32 :=
  let c12_i32 : BitVec 32 := 12#32
  let c256_i32_62 : BitVec 32 := 256#32
  let v247 : BitVec 32 := Scalar.muli c12_i32 c256_i32_62
  v247
def k0_mult14 : BitVec 32 :=
  let c13_i32 : BitVec 32 := 13#32
  let c256_i32_67 : BitVec 32 := 256#32
  let v267 : BitVec 32 := Scalar.muli c13_i32 c256_i32_67
  v267
def k0_mult15 : BitVec 32 :=
  let c14_i32 : BitVec 32 := 14#32
  let c256_i32_72 : BitVec 32 := 256#32
  let v287 : BitVec 32 := Scalar.muli c14_i32 c256_i32_72
  v287
def k0_mult16 : BitVec 32 :=
  let c15_i32 : BitVec 32 := 15#32
  let c256_i32_77 : BitVec 32 := 256#32
  let v307 : BitVec 32 := Scalar.muli c15_i32 c256_i32_77
  v307
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  pads_S2000000x64_S2002944x64_029440_000 : S2000000x64.Pads (![0, 0] : Fin 2 → Nat) ![2944, 0] ![0, 0] S2002944x64
  h_S_ : 0 < S_.numel
  pads_S2000000_S2002944_029440 : S2000000.Pads (![0] : Fin 1 → Nat) ![2944] ![0] S2002944
  shapeCasts_S2002944_S1x2002944 : S2002944.ShapeCasts S1x2002944
  inb_S64x4096_S64x4096_0_0 : ∀ a, (![0, 0] : Fin 2 → Nat) a + S64x4096.size a ≤ S64x4096.size a
  h_S64x4096 : 0 < S64x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S256x1_d0_w32 : S256x1.Iotas .tc 32 [0]
  broadcasts_S1x4096_S256x4096 : S1x4096.Broadcasts S256x4096
  broadcasts_S256x1_S256x4096 : S256x1.Broadcasts S256x4096
  natLt_1_32 : 1 < 32
  h_S64x256 : 0 < S64x256.numel
  shapeCasts_S64x256_S64x256 : S64x256.ShapeCasts S64x256
  slices_S64x102400_S64x100000_0_0 : S64x102400.Slices ![0, 0] S64x100000
  transposes_S64x100000_S100000x64_1_0 : S64x100000.Transposes [1, 0] S100000x64
  dot_S4096x64_S256x4096_S64x256_0_1_1_0_n_n_wf : DotDims.WF S4096x64 S256x4096 S64x256 [0] [1] [1] [0] [] []
  hrank0 : 0 < grid0.rank
  k0_mult1_dvd : 128 ∣ k0_mult1.toNat
  k0_off1_inb : ∀ (r : Fin 16), ∀ a, (k0_off1 (BitVec.ofNat 32 r.val)) a + S64x256.size a ≤ S64x4096.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x2002944.size a
  hwx0_0 : ∀ i : grid0.Coords, EltTy.bits .i32 = 32 ∨ (Rect.block (s := S1x2002944) S1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S2002944x64.size a
  hwx0_1 : ∀ i : grid0.Coords, EltTy.bits .bf16 = 32 ∨ (Rect.block (s := S2002944x64) S4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x102400.size a
  hwx0_2 : ∀ i : grid0.Coords, EltTy.bits .f32 = 32 ∨ (Rect.block (s := S64x102400) S64x4096.size (cc0_transform_2 i) (hinb0_2 i)).WholeWords (EltTy.packing .f32)

variable [Facts₀]

def dot_S4096x64_S256x4096_S64x256_0_1_1_0_n_n : DotDims S4096x64 S256x4096 S64x256 where
  lhsContracting := [0]
  rhsContracting := [1]
  lhsNonContracting := [1]
  rhsNonContracting := [0]
  lhsBatch := []
  rhsBatch := []
  wf := dot_S4096x64_S256x4096_S64x256_0_1_1_0_n_n_wf

abbrev win0_0 : Pipeline.Window sig grid0 :=
  Pipeline.Window.ofSpec (Memref.whole main_v3) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S2000000 : Shape := ⟨1, ![2000000]⟩
abbrev S_ : Shape := ⟨0, ![]⟩
abbrev S100000x64 : Shape := ⟨2, ![100000, 64]⟩
abbrev S2000000x1 : Shape := ⟨2, ![2000000, 1]⟩

abbrev nBuf : Space → Nat
  | .hbm => 6
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S_, .f32⟩
  | .hbm, ⟨3, _⟩ => ⟨S100000x64, .f32⟩
  | .hbm, ⟨4, _⟩ => ⟨S2000000x1, .i32⟩
  | .hbm, ⟨5, _⟩ => ⟨S100000x64, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S2000000_S2000000x1_0 : S2000000.BroadcastsInDim S2000000x1 (![0] : Fin 1 → Fin S2000000x1.rank)
  scatter_S100000x64_S2000000x1_S2000000x64_1_0_0_1_wf : ScatterDims.WF S100000x64 S2000000x1 S2000000x64 [1] [0] [0] 1

variable [Facts₀]

def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf

class Facts : Prop extends Facts₀ where

variable [Facts]
-- ==== Proof.Spec.lean ====
/-
  What both programs compute: the sum of the rows of a table by key.

  The table `H` has 2,000,000 rows of 64 numbers, and row `e` carries a key `X e`, a 32-bit word. The result has
  100,000 rows: entry `(v, d)` is the sum, over the rows `e` whose key is the word of `v`, of `H (e, d)` — an empty sum
  (zero) for a `v` no key names. Keys that are the word of no `v < 100000` (negative ones, or too large) contribute
  nowhere. The sum is over the extended reals, where addition is commutative and associative, so its order is
  immaterial.
-/
import Idealize.ShloMosaic.PureOps.Ideal
import Idealize.ShloMosaic.Lib.ValueIdx

noncomputable section

namespace Cert.Spec

open Idealize.ShloMosaic Idealize.ShloMosaic.ValueIdx

/-- The rows of the table whose key is the word of `v`. -/
def rowsOf (X : (⟨1, ![2000000]⟩ : Shape).Idx → BitVec 32) (v : Nat) : Finset (Fin 2000000) :=
  Finset.univ.filter fun e : Fin 2000000 => X (ix1 e) = BitVec.ofNat 32 v

/-- The sum of the table's rows by key: entry `(v, d)` sums `H (e, d)` over the rows `e` keyed `v`. -/
def segSum (H : (⟨2, ![2000000, 64]⟩ : Shape).Idx → EReal) (X : (⟨1, ![2000000]⟩ : Shape).Idx → BitVec 32) :
    (⟨2, ![100000, 64]⟩ : Shape).Idx → EReal :=
  fun i => ∑ e ∈ rowsOf X (i 0).val, H (ix2 e (i 1))

theorem segSum_apply (H : (⟨2, ![2000000, 64]⟩ : Shape).Idx → EReal) (X : (⟨1, ![2000000]⟩ : Shape).Idx → BitVec 32)
    (v : Fin 100000) (d : Fin 64) : segSum H X (ix2 v d) = ∑ e ∈ rowsOf X v.val, H (ix2 e d) := rfl

end Cert.Spec

end
-- ==== Proof.SegSum.lean ====
/-
  Sums over the rows of a table selected by a key.

  A row-selecting sum written with a 0/1 weight — every row's entry times one where the row's key matches and times
  zero where it does not — is the sum of the entries of the matching rows. On the extended reals this needs no
  finiteness: no distributivity is used, only that any entry times one is itself and any entry times zero, an
  infinite one too, is zero. And a sum over a range that ends in padding splits into the sum over the genuine part
  and the sum over the padding.
-/
import Mathlib.Algebra.BigOperators.Fin
import Mathlib.Algebra.BigOperators.Group.Finset.Basic
import Mathlib.Data.EReal.Basic
import Mathlib.Data.Fintype.BigOperators

namespace Cert.SegSum

open scoped BigOperators

/-- Entries weighted by the 0/1 indicator of a predicate sum to the entries where the predicate holds. -/
theorem sum_mul_indicator {ι : Type*} [Fintype ι] (P : ι → Prop) [DecidablePred P]
    (h : ι → EReal) : ∑ k, h k * (if P k then (1 : EReal) else 0) = ∑ k ∈ Finset.univ.filter P, h k := by
  rw [Finset.sum_filter]
  refine Finset.sum_congr rfl fun k _ => ?_
  by_cases hk : P k
  · rw [if_pos hk, if_pos hk, mul_one]
  · rw [if_neg hk, if_neg hk, mul_zero]

/-- A sum over `m + p` positions is the sum over the first `m` plus the sum over the last `p`. -/
theorem sum_split {M : Type*} [AddCommMonoid M] {m p K : ℕ} (hK : m + p = K) (f : Fin K → M) :
    ∑ k : Fin K, f k = ∑ i : Fin m, f ⟨i.val, by omega⟩ + ∑ j : Fin p, f ⟨m + j.val, by omega⟩ := by
  subst hK
  rw [Fin.sum_univ_add]
  rfl

/-- When every term of the last `p` positions is zero the sum is the sum over the first `m`. -/
theorem sum_drop_padding {M : Type*} [AddCommMonoid M] {m p K : ℕ} (hK : m + p = K) (f : Fin K → M)
    (hz : ∀ (k : Fin K), m ≤ k.val → f k = 0) :
    ∑ k : Fin K, f k = ∑ i : Fin m, f ⟨i.val, by omega⟩ := by
  have hp : ∑ j : Fin p, f ⟨m + j.val, by omega⟩ = 0 :=
    Finset.sum_eq_zero fun j _ => hz _ (Nat.le_add_right m j.val)
  rw [sum_split hK f, hp, add_zero]

end Cert.SegSum
-- ==== Proof.Agg.lean ====
/-
  The kernel's arithmetic, stated apart from the kernel.

  The kernel pads the table to 2,002,944 rows — the added rows are zero and carry the key -1 — and computes, for
  every column `v` below 102,400 and feature `d`, the sum over ALL padded rows of the row's entry times a 0/1 weight:
  one when the row's key is the word of `v`, zero otherwise (`total`). For `v` below 100,000 that is the sum of the
  genuine rows keyed `v` (`total_eq_segSum`): a padded row's entry is zero, so its term vanishes, and an entry times
  the weight is the entry or zero.
-/
import proofs.«401794_j13288628814370_2_alg».proof.Proof.Spec
import proofs.«401794_j13288628814370_2_alg».proof.Proof.SegSum

noncomputable section

namespace Cert.Agg

open Idealize.ShloMosaic Idealize.ShloMosaic.ValueIdx

/-- The 0/1 weight of a key `w` for column `v`: one when the key is the word of `v`. -/
def hit (w : BitVec 32) (v : Nat) : EReal := if w = BitVec.ofNat 32 v then 1 else 0

/-- The padded key column: the key of row `i` for a genuine row, the word -1 for an added one. -/
def keyPad (X : (⟨1, ![2000000]⟩ : Shape).Idx → BitVec 32) (i : Fin 2002944) : BitVec 32 :=
  if h : i.val < 2000000 then X (ix1 ⟨i.val, h⟩) else 4294967295#32

/-- The padded table: row `i` of the table for a genuine row, zero for an added one. -/
def rowPad (H : (⟨2, ![2000000, 64]⟩ : Shape).Idx → EReal) (i : Fin 2002944) (d : Fin 64) : EReal :=
  if h : i.val < 2000000 then H (ix2 ⟨i.val, h⟩ d) else 0

/-- What the kernel leaves at feature `d`, column `v` of its [64, 102400] result: the weighted sum over the padded rows. -/
def total (H : (⟨2, ![2000000, 64]⟩ : Shape).Idx → EReal) (X : (⟨1, ![2000000]⟩ : Shape).Idx → BitVec 32) (d : Fin 64) (v : Nat) : EReal :=
  ∑ i : Fin 2002944, rowPad H i d * hit (keyPad X i) v

/-- The kernel's final result: the first 100,000 columns, transposed. -/
def resultOf (H : (⟨2, ![2000000, 64]⟩ : Shape).Idx → EReal) (X : (⟨1, ![2000000]⟩ : Shape).Idx → BitVec 32) :
    (⟨2, ![100000, 64]⟩ : Shape).Idx → EReal :=
  fun i => total H X ⟨(i 1).val, idx2_lt1 i⟩ (i 0).val

/-- The weighted sum over the padded rows is the sum of the genuine rows with that key. -/
theorem total_eq (H : (⟨2, ![2000000, 64]⟩ : Shape).Idx → EReal) (X : (⟨1, ![2000000]⟩ : Shape).Idx → BitVec 32) (d : Fin 64) (v : Nat) :
    total H X d v = ∑ e ∈ Cert.Spec.rowsOf X v, H (ix2 e d) := by
  unfold total
  rw [Cert.SegSum.sum_drop_padding (m := 2000000) (p := 2944) rfl _ (fun k hk => by
    unfold rowPad; rw [dif_neg (by omega), zero_mul])]
  unfold Cert.Spec.rowsOf
  rw [← Cert.SegSum.sum_mul_indicator]
  refine Finset.sum_congr rfl fun e _ => ?_
  unfold rowPad keyPad hit
  rw [dif_pos e.isLt, dif_pos e.isLt]

/-- So the kernel's final result is the sum of the table's rows by key. -/
theorem resultOf_eq (H : (⟨2, ![2000000, 64]⟩ : Shape).Idx → EReal) (X : (⟨1, ![2000000]⟩ : Shape).Idx → BitVec 32) :
    resultOf H X = Cert.Spec.segSum H X := by
  funext i
  obtain ⟨v, d, rfl⟩ : ∃ (v : Fin 100000) (d : Fin 64), i = ix2 v d := ⟨i 0, i 1, eq_ix2 i⟩
  exact total_eq H X d v.val

end Cert.Agg

end
-- ==== Proof.Names.lean ====
/-
  Names for what the kernel's run is stated over, at the extended reals: the two argument arrays as the run finds
  them, and the blocks of the padded key row and of the padded table that a grid point's body reads.
-/
import proofs.«401794_j13288628814370_2_alg».proof.Proof.Gen.KernelIdeal.Frame
import proofs.«401794_j13288628814370_2_alg».proof.Proof.Agg

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The table `H` [2000000, 64] as launched. -/
abbrev Harg (c : Dev nD) : S2000000x64.Idx → EReal := m ((c : Thread nD τ).loc main_arg0)
/-- The keys `X` [2000000] as launched. -/
abbrev Xarg (c : Dev nD) : S2000000.Idx → BitVec 32 := m ((c : Thread nD τ).loc main_arg1)
/-- The block [1, 4096] of the padded key row that grid point `t` reads. -/
abbrev keyBlk (c : Dev nD) (t : Fin cfg0.N) : Vec Ideal S1x4096 .i32 := iblk m c 0 t
/-- The block [4096, 64] of the padded table that grid point `t` reads. -/
abbrev rowBlk (c : Dev nD) (t : Fin cfg0.N) : Vec Ideal S4096x64 .bf16 := iblk m c 1 t
/-- What the output's staging buffer [64, 4096] holds after grid point `t`. -/
abbrev accAfter (c : Dev nD) (t : Fin cfg0.N) : Vec Ideal S64x4096 .f32 := outsAt0 m c t.val t.isLt

end Cert.KernelIdeal.Val

end
-- ==== Proof.GridFacts.lean ====
/-
  The grid's points in closed form: point `t` of the 25 × 489 grid, in the order the points run, is step `t mod 489` of
  column tile `t / 489`; and which block each window has there.
-/
import proofs.«401794_j13288628814370_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.SL.Sem

theorem point_lt (t : Fin cfg0.N) : t.val < 12225 := lt_of_lt_of_eq t.isLt (show cfg0.N = 12225 from N_0)

/-- The column tile of point `t`. -/
theorem tile_of (t : Fin cfg0.N) : (grid0.coords t 0).val = t.val / 489 := by
  have hN := point_lt t
  show t.val / grid0.stride 0 % 25 = _
  rw [show grid0.stride 0 = 489 from by decide]
  omega

/-- The step of point `t` inside its tile. -/
theorem step_of (t : Fin cfg0.N) : (grid0.coords t 1).val = t.val % 489 := by
  show t.val / grid0.stride 1 % 489 = _
  rw [show grid0.stride 1 = 1 from by decide, Nat.div_one]

/-- The key window has block (0, step). -/
theorem keyIndex (t : Fin cfg0.N) : win0_0.index t 0 = 0 ∧ win0_0.index t 1 = t.val % 489 := by
  have h1 := step_of t
  have hlt : (grid0.coords t 1).val < 489 := (grid0.coords t 1).isLt
  refine ⟨rfl, ?_⟩
  show (BitVec.ofNat 32 (grid0.coords t 1).val).toNat = _
  rw [BitVec.toNat_ofNat, h1]
  omega

/-- The table window has block (step, 0). -/
theorem rowIndex (t : Fin cfg0.N) : win0_1.index t 0 = t.val % 489 ∧ win0_1.index t 1 = 0 := by
  have h1 := step_of t
  refine ⟨?_, rfl⟩
  show (BitVec.ofNat 32 (grid0.coords t 1).val).toNat = _
  rw [BitVec.toNat_ofNat, h1]
  omega

/-- The output window has block (0, tile). -/
theorem outIndex (t : Fin cfg0.N) : win0_2.index t 0 = 0 ∧ win0_2.index t 1 = t.val / 489 := by
  have h0 := tile_of t
  have hN := point_lt t
  refine ⟨rfl, ?_⟩
  show (BitVec.ofNat 32 (grid0.coords t 0).val).toNat = _
  rw [BitVec.toNat_ofNat, h0]
  omega

end Cert.KernelIdeal.Val

end
-- ==== Proof.HostIn.lean ====
/-
  What a grid point's input blocks hold, in terms of the launched arguments.

  Before the region the table is padded with 2,944 rows of zeros and the keys with 2,944 copies of the word -1, the
  padded keys then laid out as one row. Point `t` is step `t mod 489` of its column tile: its key block is columns
  `(t mod 489) * 4096 …` of that row and its table block is rows `(t mod 489) * 4096 …` of the padded table.
-/
import proofs.«401794_j13288628814370_2_alg».proof.Proof.Names
import proofs.«401794_j13288628814370_2_alg».proof.Proof.GridFacts
import Idealize.ShloMosaic.Lib.Pipeline.Value
import Idealize.ShloMosaic.Lib.KernelVsHost
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The two arrays the region reads, as functions of the arguments -/

/-- The padded table: the table, cast to the narrower format (no change over the extended reals), with 2,944 rows
    holding the number of the zero word appended. -/
def tablePadded (H : S2000000x64.Idx → EReal) : S2002944x64.Idx → EReal :=
  pad S2002944x64 ![0, 0] ![2944, 0] ![0, 0] (truncf (F := Ideal) .bf16 H bitsLt_bf16_f32)
    (sitofp (F := Ideal) .bf16 (constantI S_ 32 0#32)) pads_S2000000x64_S2002944x64_029440_000 h_S_

/-- The padded key row: the keys with 2,944 copies of the word -1 appended, laid out as one row. -/
def keysPadded (X : S2000000.Idx → BitVec 32) : S1x2002944.Idx → BitVec 32 :=
  shapeCast S1x2002944
    (pad S2002944 ![0] ![2944] ![0] X (id (constantI S_ 32 4294967295#32)) pads_S2000000_S2002944_029440 h_S_)
    shapeCasts_S2002944_S1x2002944

/-- The table window's array, when the region is entered, is the padded table. -/
theorem V_main_v1 (c : Dev nD) : (V m c main_v1 : S2002944x64.Idx → EReal) = tablePadded (Harg m c) := by
  unfold tablePadded
  dsimp only [V, V0]
  simp only [hostOps0, hostOps0_1, hostOps0_2, hostOps0_3, hostOps0_4, List.flatten_cons, List.flatten_nil, List.append_nil,
    List.cons_append, List.nil_append]
  after_results
  simp only [TRef.ofBuf, TRef.toBuf, cast_eq]

/-- The key window's array, when the region is entered, is the padded key row. -/
theorem V_main_v3 (c : Dev nD) : (V m c main_v3 : S1x2002944.Idx → BitVec 32) = keysPadded (Xarg m c) := by
  unfold keysPadded
  dsimp only [V, V0]
  simp only [hostOps0, hostOps0_1, hostOps0_2, hostOps0_3, hostOps0_4, List.flatten_cons, List.flatten_nil, List.append_nil,
    List.cons_append, List.nil_append]
  after_results
  simp only [TRef.ofBuf, TRef.toBuf, cast_eq]
  rfl

/-! ## The two arrays read at an index -/

/-- The padded key row at column `i`: the key of row `i` below 2,000,000, the word -1 from there on. The row's
    one-row layout has column `i` at row-major position `i`, the position of entry `i` of the padded keys. -/
theorem keysPadded_at (X : S2000000.Idx → BitVec 32) (j : S1x2002944.Idx) (i : Fin 2002944) (hj : (j 1).val = i.val) :
    keysPadded X j = Cert.Agg.keyPad X i := by
  unfold keysPadded Cert.Agg.keyPad
  have h0 : (j 0).val = 0 := by have := idx2_lt0 j; omega
  refine (shapeCast_apply _ _ j (ix1 i) (by
    rw [Shape.rowMajor_val_one, Shape.rowMajor_val_two, h0, hj]
    show i.val = 0 * 2002944 + i.val
    omega)).trans ?_
  by_cases h : i.val < 2000000
  · rw [dif_pos h]
    exact pad_apply_of_inside _ _ _ X _ _ _ (ix1 i) (ix1 (⟨i.val, h⟩ : Fin 2000000)) (by
      intro a
      have ha : a = 0 := Subsingleton.elim _ _
      subst ha
      show i.val = 0 + i.val * (0 + 1)
      omega)
  · rw [dif_neg h]
    refine (pad_apply_of_not_inside _ _ _ X _ _ _ (ix1 i) (0 : Fin 1) (by
      intro hin
      have e : (i.val - 0) / (0 + 1) < 2000000 := hin.2.2
      rw [Nat.div_one] at e
      omega)).trans ?_
    rfl

/-- The padded table at row `i`, feature `d`: the table's entry below row 2,000,000, zero from there on. -/
theorem tablePadded_at (H : S2000000x64.Idx → EReal) (j : S2002944x64.Idx) (i : Fin 2002944) (d : Fin 64)
    (hi : (j 0).val = i.val) (hd : (j 1).val = d.val) : tablePadded H j = Cert.Agg.rowPad H i d := by
  unfold tablePadded Cert.Agg.rowPad
  by_cases h : i.val < 2000000
  · rw [dif_pos h]
    refine (pad_apply_of_inside _ _ _ _ _ _ _ j (ix2 (⟨i.val, h⟩ : Fin 2000000) d) (fun a => ?_)).trans ?_
    · match a with
      | ⟨0, _⟩ => show (j 0).val = 0 + i.val * (0 + 1); omega
      | ⟨1, _⟩ => show (j 1).val = 0 + d.val * (0 + 1); omega
    · rfl
  · rw [dif_neg h]
    refine (pad_apply_of_not_inside _ _ _ _ _ _ _ j (0 : Fin 2) (by
      intro hin
      have e : ((j 0).val - 0) / (0 + 1) < 2000000 := hin.2.2
      rw [Nat.div_one] at e
      omega)).trans ?_
    show (((0#32 : BitVec 32).toInt : ℝ) : EReal) = 0
    rw [show (0#32 : BitVec 32).toInt = 0 from by decide]
    norm_num

/-! ## The blocks -/

/-- Entry `k` of the key block of grid point `t` is the padded key of row `(t mod 489) * 4096 + k`. -/
theorem keyBlk_apply (c : Dev nD) (t : Fin cfg0.N) (k : Fin 4096) (hi : (t.val % 489) * 4096 + k.val < 2002944) :
    keyBlk m c t (ix2 0 k) = Cert.Agg.keyPad (Xarg m c) ⟨(t.val % 489) * 4096 + k.val, hi⟩ := by
  show ((cfg0.win 0).blk t).view.read (Elt Ideal) (V m c main_v3) (ix2 0 k) = _
  rw [View.read_apply]
  show V m c main_v3 _ = _
  rw [V_main_v3]
  refine keysPadded_at _ _ _ ?_
  show win0_0.index t 1 * 4096 + 1 * k.val = (t.val % 489) * 4096 + k.val
  rw [(keyIndex t).2]
  omega

/-- Entry `(k, d)` of the table block of grid point `t` is the padded table at row `(t mod 489) * 4096 + k`, feature `d`. -/
theorem rowBlk_apply (c : Dev nD) (t : Fin cfg0.N) (k : Fin 4096) (d : Fin 64) (hi : (t.val % 489) * 4096 + k.val < 2002944) :
    rowBlk m c t (ix2 k d) = Cert.Agg.rowPad (Harg m c) ⟨(t.val % 489) * 4096 + k.val, hi⟩ d := by
  show ((cfg0.win 1).blk t).view.read (Elt Ideal) (V m c main_v1) (ix2 k d) = _
  rw [View.read_apply]
  show V m c main_v1 _ = _
  rw [V_main_v1]
  refine tablePadded_at _ _ _ _ ?_ ?_
  · show win0_1.index t 0 * 4096 + 1 * k.val = (t.val % 489) * 4096 + k.val
    rw [(rowIndex t).1]
    omega
  · show win0_1.index t 1 * 64 + 1 * d.val = d.val
    rw [(rowIndex t).2]
    omega

end Cert.KernelIdeal.Val

end
-- ==== Proof.LibPlainDot.lean ====
/-
  A plain matrix product `[M, K] × [K, N] → [M, N]` (no batch axis; the left operand contracts its axis 1, the right
  its axis 0) into a zero accumulator, read at `(p, q)` at the ideal values: the sum over `k` of the left operand at
  `(p, k)` times the right at `(k, q)`. General in the extents, the element types and the precision; the dimension
  record enters only through its six lists. Nothing here depends on a kernel.
-/
import Idealize.ShloMosaic.PureOps.Ideal.Laws
import Idealize.ShloMosaic.Lib.ValueIdx

namespace Idealize.ShloMosaic.PlainDot

open Idealize.ShloMosaic Idealize.ShloMosaic.ValueIdx

variable {sl sr so : Shape}

/-- With no batch axis and ONE non-contracting left axis `a`, the left index on `a` is the result index's axis 0. -/
theorem lhsIdx_val_of_non (d : DotDims sl sr so) {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one non-contracting left axis and ONE non-contracting right axis `a`, the right index on `a` is
    the result index's axis 1. -/
theorem rhsIdx_val_of_non (d : DotDims sl sr so) {a : Fin sr.rank} {al : Fin sl.rank} (hlb : d.lhsBatch = []) (hrb : d.rhsBatch = [])
    (hln : d.lhsNonContracting = [al]) (hn : d.rhsNonContracting = [a])
    (j : so.Idx) (k : d.contr.Idx) (h1 : 1 < so.rank) : (d.rhsIdx j k a).val = (j ⟨1, h1⟩).val := by
  have hnb : a ∉ d.rhsBatch := by rw [hrb]; exact List.not_mem_nil
  have hmem : a ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- One contracting axis: the contraction shape has rank one. -/
theorem contr_rank_one (d : DotDims sl sr so) {cl : Fin sl.rank} (hc : d.lhsContracting = [cl]) : d.contr.rank = 1 := by
  rw [d.rank_contr, hc]; rfl

/-- … and its one extent is the left operand's on that axis. -/
theorem contr_size_zero (d : DotDims sl sr so) {cl : Fin sl.rank} (hc : d.lhsContracting = [cl]) (h : 0 < d.contr.rank) :
    d.contr.size ⟨0, h⟩ = sl.size cl := by
  rw [d.size_contr 0 (by rw [hc]; exact Nat.one_pos)]
  simp [hc]

/-- THE PLAIN PRODUCT at `(p, q)`. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := contr_rank_one d hlc
  have hs : d.contr.size ⟨0, by omega⟩ = K := (contr_size_zero d hlc (by omega)).trans rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_val_of_non d hlb hln _ _ (by show 0 < 2; omega)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhsIdx_val_of_non d hlb hrb hln hrn _ _ (by show 1 < 2; omega))
  rw [el, er]

end Idealize.ShloMosaic.PlainDot
-- ==== Proof.LibDotNT.lean ====
/-
  A matrix product that contracts the FIRST axis of its left operand against the SECOND axis of its right operand,
  read at an index.

  For operands of shapes [K, M] and [N, K] (no batch axis; the left operand keeps its axis 1, the right its axis 0),
  the product into a zero accumulator holds, at (p, q), the sum over k of the left operand at (k, p) times the right
  at (q, k): both operands are read "transposed" with respect to the plain [M, K] x [K, N] product. General in the
  extents, the element types and the precision; the dimension record enters only through its six lists.
-/
import Idealize.ShloMosaic.PureOps.Ideal
import Idealize.ShloMosaic.PureOps.Ideal.Laws
import Idealize.ShloMosaic.Lib.ValueIdx
import proofs.«401794_j13288628814370_2_alg».proof.Proof.LibPlainDot

noncomputable section

namespace Idealize.ShloMosaic.PlainDot

open Idealize.ShloMosaic Idealize.ShloMosaic.ValueIdx

/-- A product `[K, M] × [N, K] → [M, N]` that contracts axis 0 of the left operand with axis 1 of the right one, into
    a zero accumulator, read at `(p, q)`: the sum over `k` of the left operand at `(k, p)` times the right at `(q, k)`. -/
theorem matmul_nt_apply {M K N : Nat} {φ₁ φ₂ : FTy}
    (d : DotDims ⟨2, ![K, M]⟩ ⟨2, ![N, K]⟩ ⟨2, ![M, N]⟩)
    (hlc : d.lhsContracting = [0]) (hrc : d.rhsContracting = [1]) (hln : d.lhsNonContracting = [1]) (hrn : d.rhsNonContracting = [0])
    (hlb : d.lhsBatch = []) (hrb : d.rhsBatch = []) (prec : Option ContractPrecision)
    (l : FVec Ideal ⟨2, ![K, M]⟩ φ₁) (r : FVec Ideal ⟨2, ![N, K]⟩ φ₂) (p : Fin M) (q : Fin N) :
    FloatOps.matmul d prec l r (constant ⟨2, ![M, N]⟩ .f32 0x00000000#32) (ix2 p q) = ∑ k : Fin K, l (ix2 k p) * r (ix2 q k) := by
  have hr : d.contr.rank = 1 := contr_rank_one d hlc
  have hs : d.contr.size ⟨0, by omega⟩ = K := (contr_size_zero d hlc (by omega)).trans rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (d.lhsIdx_val_of_single hlc _ _).trans hk
    | ⟨1, _⟩ => exact lhsIdx_val_of_non d hlb hln _ _ (by show 0 < 2; omega))
  have er : d.rhsIdx (ix2 p q) ((contrEquiv1 d K hr hs).symm k) = ix2 q k := funext fun a => Fin.ext (by
    match a with
    | ⟨0, _⟩ => exact rhsIdx_val_of_non d hlb hrb hln hrn _ _ (by show 1 < 2; omega)
    | ⟨1, _⟩ => exact (d.rhsIdx_val_of_single hrc _ _).trans hk)
  rw [el, er]

end Idealize.ShloMosaic.PlainDot

end
-- ==== Proof.Chunk.lean ====
/-
  One chunk of the kernel's body, read at an index.

  The body of a grid point runs sixteen times over consecutive chunks of 256 columns of its [64, 4096] output block.
  A chunk whose first column has the word `vid0` compares every key of the point's key block (4096 keys) with the words
  `vid0 + j`, `j < 256`, turns each comparison into the number one or zero, multiplies the point's table block
  (4096 rows of 64 features), transposed, with that 0/1 matrix, and adds the product to what the chunk's columns held.
  So at feature `d` and column `j` of the chunk the result is what was there plus the sum, over the 4096 rows `k` of the
  block, of the row's feature `d` times the weight of the row's key for the column with word `vid0 + j`.
-/
import proofs.«401794_j13288628814370_2_alg».proof.Proof.Gen.KernelIdeal.Skeleton
import proofs.«401794_j13288628814370_2_alg».proof.Proof.LibDotNT
import proofs.«401794_j13288628814370_2_alg».proof.Proof.Agg
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

variable {F : FTy → Type} [FloatOps F]

/-- One chunk's update of its 256 columns: what they held (`cur`) plus the table block `h`, transposed, times the 0/1
    matrix of "key `k` is the word `vid0 + j`". -/
def chunkAdd (vid0 : BitVec 32) (x : IVec S1x4096 32) (h : FVec F S4096x64 .bf16) (cur : Vec F S64x256 .f32) : FVec F S64x256 .f32 :=
  addf (shapeCast S64x256 cur shapeCasts_S64x256_S64x256)
    (matmul dot_S4096x64_S256x4096_S64x256_0_1_1_0_n_n none h
      (truncf .bf16 (sitofp .f32 (extui 32 (cmpi .eq (broadcastTo S256x4096 x broadcasts_S1x4096_S256x4096)
        (broadcastTo S256x4096 (addi (broadcast S256x1 vid0) (iota .tc S256x1 32 [0] iota_S256x1_d0_w32)) broadcasts_S256x1_S256x4096))
        natLt_1_32)) bitsLt_bf16_f32)
      (constant S64x256 .f32 0x00000000#32))

/-- A comparison of two words for equality, widened and converted to a number, is one when they are equal and zero
    when they are not. -/
theorem eqWord_toReal (a b : BitVec 32) :
    (FloatOps.sitofp (F := Ideal) .f32 ((IntOp.cmpi .eq a b).setWidth 32) : EReal) = if a = b then 1 else 0 := by
  by_cases hab : a = b
  · subst hab
    rw [if_pos rfl]
    show (((((IntOp.cmpi .eq a a).setWidth 32).toInt : ℝ)) : EReal) = 1
    have : IntOp.cmpi .eq a a = 1#1 := by simp [IntOp.cmpi]
    rw [this]
    norm_num
  · rw [if_neg hab]
    show (((((IntOp.cmpi .eq a b).setWidth 32).toInt : ℝ)) : EReal) = 0
    have : IntOp.cmpi .eq a b = 0#1 := by
      unfold IntOp.cmpi
      rw [show (a == b) = false from beq_eq_false_iff_ne.mpr hab]
      rfl
    rw [this]
    norm_num

/-- The chunk's update at feature `d`, column `j`. -/
theorem chunkAdd_apply (vid0 : BitVec 32) (x : IVec S1x4096 32) (h : FVec Ideal S4096x64 .bf16) (cur : Vec Ideal S64x256 .f32)
    (d : Fin 64) (j : Fin 256) :
    chunkAdd (F := Ideal) vid0 x h cur (ix2 d j)
      = cur (ix2 d j) + ∑ k : Fin 4096, h (ix2 k d) * (if x (ix2 0 k) = vid0 + BitVec.ofNat 32 j.val then (1 : EReal) else 0) := by
  unfold chunkAdd
  rw [addf_apply, shapeCast_self]
  congr 1
  refine (PlainDot.matmul_nt_apply dot_S4096x64_S256x4096_S64x256_0_1_1_0_n_n rfl rfl rfl rfl rfl rfl none h _ d j).trans ?_
  refine Finset.sum_congr rfl fun k _ => ?_
  congr 1
  rw [truncf_apply, sitofp_apply, extui_apply]
  show FloatOps.sitofp (F := Ideal) .f32 ((IntOp.cmpi .eq _ _).setWidth 32) = _
  rw [eqWord_toReal]
  -- the key matrix repeats the key row down its 256 rows; the column words repeat across its 4096 columns
  have hx : broadcastTo S256x4096 x broadcasts_S1x4096_S256x4096 (ix2 j k) = x (ix2 0 k) :=
    broadcastTo_apply x broadcasts_S1x4096_S256x4096 (ix2 j k) (ix2 0 k) (fun a => by
      match a with
      | ⟨0, _⟩ => rfl
      | ⟨1, _⟩ => show k.val = if (4096 : Nat) = 1 then 0 else k.val; rw [if_neg (by decide)])
  have hv : broadcastTo S256x4096 (addi (broadcast S256x1 vid0) (iota .tc S256x1 32 [0] iota_S256x1_d0_w32))
      broadcasts_S256x1_S256x4096 (ix2 j k) = vid0 + BitVec.ofNat 32 j.val := by
    refine (broadcastTo_apply _ broadcasts_S256x1_S256x4096 (ix2 j k) (ix2 j 0) (fun a => by
      match a with
      | ⟨0, _⟩ => show j.val = if (256 : Nat) = 1 then 0 else j.val; rw [if_neg (by decide)]
      | ⟨1, _⟩ => rfl)).trans ?_
    show IntOp.addi vid0 (iota .tc S256x1 32 [0] iota_S256x1_d0_w32 (ix2 j 0)) = _
    rw [iota_single_apply]
    rfl
  rw [hx, hv]

/-! ## The words of the columns -/

/-- The word of column `a * 4096 + cN * 256`, as the body computes it from the tile number `a` and the chunk number `cN`. -/
theorem vid_word (a cN : Nat) :
    Scalar.addi (Scalar.muli (BitVec.ofNat 32 a) 4096#32) (Scalar.muli (BitVec.ofNat 32 cN) 256#32)
      = BitVec.ofNat 32 (a * 4096 + cN * 256) := by
  show BitVec.ofNat 32 a * 4096#32 + BitVec.ofNat 32 cN * 256#32 = _
  apply BitVec.eq_of_toNat_eq
  simp only [BitVec.toNat_add, BitVec.toNat_mul, BitVec.toNat_ofNat]
  omega

/-- The same for the chunk whose offset the body carries as the literal 2048. -/
theorem vid_word8 (a : Nat) :
    Scalar.addi (Scalar.muli (BitVec.ofNat 32 a) 4096#32) 2048#32 = BitVec.ofNat 32 (a * 4096 + 8 * 256) := by
  show BitVec.ofNat 32 a * 4096#32 + 2048#32 = _
  apply BitVec.eq_of_toNat_eq
  simp only [BitVec.toNat_add, BitVec.toNat_mul, BitVec.toNat_ofNat]
  omega

/-- Adding a column's position inside the chunk to the chunk's first word gives the column's word. -/
theorem word_add (n q : Nat) : BitVec.ofNat 32 n + BitVec.ofNat 32 q = BitVec.ofNat 32 (n + q) := by
  apply BitVec.eq_of_toNat_eq
  simp only [BitVec.toNat_add, BitVec.toNat_ofNat]
  omega

/-! ## A grid point's result, as one function of its output block's index -/

/-- What a grid point of tile `vt` leaves at feature `d`, local column `col` of its [64, 4096] block, over a buffer that held
    `base`: what was there plus the sum over the point's 4096 rows of the row's feature `d` times the weight of the row's
    key for column `vt * 4096 + col`. -/
def pointVal (vt : Nat) (x : IVec S1x4096 32) (h : S4096x64.Idx → EReal) (base : S64x4096.Idx → EReal) (d : Fin 64) (col : Fin 4096) : EReal :=
  base (ix2 d col) + ∑ k : Fin 4096, h (ix2 k d) * Cert.Agg.hit (x (ix2 0 k)) (vt * 4096 + col.val)

/-- The same as a function of the block's index. -/
def pointFn (vt : Nat) (x : IVec S1x4096 32) (h : S4096x64.Idx → EReal) (base : S64x4096.Idx → EReal) : S64x4096.Idx → EReal :=
  fun z => pointVal vt x h base ⟨(z 0).val, idx2_lt0 z⟩ ⟨(z 1).val, idx2_lt1 z⟩

theorem pointFn_apply (vt : Nat) (x : IVec S1x4096 32) (h : S4096x64.Idx → EReal) (base : S64x4096.Idx → EReal) (d : Fin 64) (col : Fin 4096) :
    pointFn vt x h base (ix2 d col) = pointVal vt x h base d col := rfl

/-- Chunk `cN` of a point of tile `vt` writes, at its own index `y`, the point's function at the block index `z` that `y`
    names (same feature, column `cN * 256` further), provided what it loaded there (`cur`) is what the buffer held. -/
theorem chunk_at (vt cN : Nat) (x : IVec S1x4096 32) (h : FVec Ideal S4096x64 .bf16) (base : S64x4096.Idx → EReal)
    (vid0 : BitVec 32) (hv : vid0 = BitVec.ofNat 32 (vt * 4096 + cN * 256)) (cur : Vec Ideal S64x256 .f32)
    (y : S64x256.Idx) (z : S64x4096.Idx) (hz0 : (z 0).val = 0 + 1 * (y 0).val) (hz1 : (z 1).val = cN * 256 + 1 * (y 1).val)
    (hcur : cur y = base z) :
    chunkAdd (F := Ideal) vid0 x h cur y = pointFn vt x h base z := by
  obtain ⟨p, q, rfl⟩ : ∃ (p : Fin 64) (q : Fin 256), y = ix2 p q := ⟨y 0, y 1, eq_ix2 y⟩
  have hp : (⟨(z 0).val, idx2_lt0 z⟩ : Fin 64) = p := Fin.ext (by show (z 0).val = p.val; rw [hz0]; show 0 + 1 * p.val = p.val; omega)
  have hq : (z 1).val = cN * 256 + q.val := by rw [hz1]; show cN * 256 + 1 * q.val = _; omega
  have hzz : (ix2 (⟨(z 0).val, idx2_lt0 z⟩ : Fin 64) (⟨(z 1).val, idx2_lt1 z⟩ : Fin 4096) : S64x4096.Idx) = z :=
    funext fun a => by match a with | ⟨0, _⟩ => rfl | ⟨1, _⟩ => rfl
  rw [chunkAdd_apply, hcur]
  unfold pointFn pointVal
  rw [hzz, hp]
  congr 1
  refine Finset.sum_congr rfl fun k _ => ?_
  congr 1
  unfold Cert.Agg.hit
  rw [hv, word_add, hq, Nat.add_assoc]

/-! ## The sixteen payloads are the sixteen chunks -/

theorem pay5_eq (i : grid0.Coords) (v3 : Vec F S1x4096 .i32) (v5 : Vec F S4096x64 .bf16) (cur : Vec F S64x256 .f32) :
    k0_pay5 i v3 v5 cur = chunkAdd (Scalar.addi (Scalar.muli (BitVec.ofNat 32 (i 0).val) 4096#32) (Scalar.muli 0#32 256#32)) (k0_pay3 v3) (k0_pay4 v5) cur := rfl
theorem pay7_eq (i : grid0.Coords) (v3 : Vec F S1x4096 .i32) (h : FVec F S4096x64 .bf16) (cur : Vec F S64x256 .f32) :
    k0_pay7 h (k0_pay6 i v3) (constant S64x256 .f32 0#32) cur = chunkAdd (Scalar.addi (Scalar.muli (BitVec.ofNat 32 (i 0).val) 4096#32) (Scalar.muli 1#32 256#32)) (k0_pay3 v3) h cur := rfl
theorem pay8_eq (a : BitVec 32) (x : IVec S1x4096 32) (h : FVec F S4096x64 .bf16) (cur : Vec F S64x256 .f32) :
    k0_pay8 a x h cur = chunkAdd (Scalar.addi (Scalar.muli a 4096#32) (Scalar.muli 2#32 256#32)) x h cur := rfl
theorem pay9_eq (a : BitVec 32) (x : IVec S1x4096 32) (h : FVec F S4096x64 .bf16) (cur : Vec F S64x256 .f32) :
    k0_pay9 a x h cur = chunkAdd (Scalar.addi (Scalar.muli a 4096#32) (Scalar.muli 3#32 256#32)) x h cur := rfl
theorem pay10_eq (a : BitVec 32) (x : IVec S1x4096 32) (h : FVec F S4096x64 .bf16) (cur : Vec F S64x256 .f32) :
    k0_pay10 a x h cur = chunkAdd (Scalar.addi (Scalar.muli a 4096#32) (Scalar.muli 4#32 256#32)) x h cur := rfl
theorem pay11_eq (a : BitVec 32) (x : IVec S1x4096 32) (h : FVec F S4096x64 .bf16) (cur : Vec F S64x256 .f32) :
    k0_pay11 a x h cur = chunkAdd (Scalar.addi (Scalar.muli a 4096#32) (Scalar.muli 5#32 256#32)) x h cur := rfl
theorem pay12_eq (a : BitVec 32) (x : IVec S1x4096 32) (h : FVec F S4096x64 .bf16) (cur : Vec F S64x256 .f32) :
    k0_pay12 a x h 6#32 256#32 cur = chunkAdd (Scalar.addi (Scalar.muli a 4096#32) (Scalar.muli 6#32 256#32)) x h cur := rfl
theorem pay13_eq (a : BitVec 32) (x : IVec S1x4096 32) (h : FVec F S4096x64 .bf16) (cur : Vec F S64x256 .f32) :
    k0_pay13 a x h cur = chunkAdd (Scalar.addi (Scalar.muli a 4096#32) (Scalar.muli 7#32 256#32)) x h cur := rfl
theorem pay14_eq (vid0 : BitVec 32) (x : IVec S1x4096 32) (h : FVec F S4096x64 .bf16) (cur : Vec F S64x256 .f32) :
    k0_pay14 x h vid0 (iota .tc S256x1 32 [0] iota_S256x1_d0_w32) cur = chunkAdd vid0 x h cur := rfl
theorem pay15_eq (a : BitVec 32) (x : IVec S1x4096 32) (h : FVec F S4096x64 .bf16) (cur : Vec F S64x256 .f32) :
    k0_pay15 a x h cur = chunkAdd (Scalar.addi (Scalar.muli a 4096#32) (Scalar.muli 9#32 256#32)) x h cur := rfl
theorem pay17_eq (a : BitVec 32) (x : IVec S1x4096 32) (h : FVec F S4096x64 .bf16) (cur : Vec F S64x256 .f32) :
    k0_pay17 h (k0_pay16 a x) cur = chunkAdd (Scalar.addi (Scalar.muli a 4096#32) (Scalar.muli 10#32 256#32)) x h cur := rfl
theorem pay18_eq (a : BitVec 32) (x : IVec S1x4096 32) (h : FVec F S4096x64 .bf16) (cur : Vec F S64x256 .f32) :
    k0_pay18 a x h cur = chunkAdd (Scalar.addi (Scalar.muli a 4096#32) (Scalar.muli 11#32 256#32)) x h cur := rfl
theorem pay20_eq (a : BitVec 32) (x : IVec S1x4096 32) (h : FVec F S4096x64 .bf16) (cur : Vec F S64x256 .f32) :
    k0_pay20 (k0_pay19 a x h) cur = chunkAdd (Scalar.addi (Scalar.muli a 4096#32) (Scalar.muli 12#32 256#32)) x h cur := rfl
theorem pay21_eq (a : BitVec 32) (x : IVec S1x4096 32) (h : FVec F S4096x64 .bf16) (cur : Vec F S64x256 .f32) :
    k0_pay21 a x h cur = chunkAdd (Scalar.addi (Scalar.muli a 4096#32) (Scalar.muli 13#32 256#32)) x h cur := rfl
theorem pay22_eq (a : BitVec 32) (x : IVec S1x4096 32) (h : FVec F S4096x64 .bf16) (cur : Vec F S64x256 .f32) :
    k0_pay22 a x h cur = chunkAdd (Scalar.addi (Scalar.muli a 4096#32) (Scalar.muli 14#32 256#32)) x h cur := rfl
theorem pay1_eq (a : BitVec 32) (x : IVec S1x4096 32) (h : FVec F S4096x64 .bf16) (cur : Vec F S64x256 .f32) :
    k0_pay1 a x h cur = chunkAdd (Scalar.addi (Scalar.muli a 4096#32) (Scalar.muli 15#32 256#32)) x h cur := rfl

end Cert.KernelIdeal.Val

end
-- ==== Proof.PointB.lean ====
/-
  What a grid point that is not the first of its column tile leaves in the output's staging buffer.
-/
import proofs.«401794_j13288628814370_2_alg».proof.Proof.Gen.KernelIdeal.Frame
import proofs.«401794_j13288628814370_2_alg».proof.Proof.Chunk
import Idealize.ShloMosaic.Lib.Pipeline.Value
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx Idealize.ShloMosaic.Tactic

theorem zeroOff : (![0, 0] : Fin 2 → Nat) = fun _ => 0 := funext fun a => by fin_cases a <;> rfl

/-- The body's load of its whole key block reads the block. -/
theorem keyLoad (arg2 : Memref sig .tc .vmem S1x4096 .i32) (harg2 : arg2.IsWhole) (x0 : Vec Ideal S1x4096 .i32) :
    k0_pay3 (F := Ideal) (View.readAt (Elt Ideal) arg2.view (Rect.unit (s := S1x4096) ![0, 0] ![1, 4096] inb_S1x4096_S1x4096_0_0).toLoadRect (harg2.unread x0)) = x0 := by
  unfold k0_pay3
  simp only [View.readAt_eq_ld, harg2.read_unread, View.ld_unit_zero (S := S1x4096) zeroOff, shapeCast_self]

/-- The body's load of its whole table block reads the block. -/
theorem rowLoad (arg3 : Memref sig .tc .vmem S4096x64 .bf16) (harg3 : arg3.IsWhole) (x1 : Vec Ideal S4096x64 .bf16) :
    k0_pay4 (F := Ideal) (View.readAt (Elt Ideal) arg3.view (Rect.unit (s := S4096x64) ![0, 0] ![4096, 64] inb_S4096x64_S4096x64_0_0).toLoadRect (harg3.unread x1)) = x1 := by
  unfold k0_pay4
  simp only [View.readAt_eq_ld, harg3.read_unread, View.ld_unit_zero (S := S4096x64) zeroOff, shapeCast_self]

/-- A chunk's load of its 256 columns, before any store of the point, reads what the buffer held there. -/
theorem curLoad (arg4 : Memref sig .tc .vmem S64x4096 .f32) (harg4 : arg4.IsWhole) (xo2 : Vec Ideal S64x4096 .f32)
    (off : Fin 2 → Nat) (inb : ∀ a, off a + (![64, 256] : Fin 2 → Nat) a ≤ S64x4096.size a) (y : S64x256.Idx) :
    View.readAt (Elt Ideal) arg4.view (Rect.unit (s := S64x4096) off ![64, 256] inb).toLoadRect (harg4.unread xo2) y
      = xo2 ((Rect.unit (s := S64x4096) off ![64, 256] inb).emb y) := by
  rw [View.readAt_eq_ld, harg4.read_unread]
  rfl

/-- CASE B (a point that is not the first of its tile): over a staging buffer holding `xo2`, the body leaves the point's
    function of the key block `x0`, the table block `x1` and `xo2` — every one of its sixteen stores is that function's
    block at the store's columns. -/
theorem out_B (c : Dev nD) (i : grid0.Coords) (arg2 : Memref sig .tc .vmem S1x4096 .i32) (harg2 : arg2.IsWhole)
    (arg3 : Memref sig .tc .vmem S4096x64 .bf16) (harg3 : arg3.IsWhole) (arg4 : Memref sig .tc .vmem S64x4096 .f32) (harg4 : arg4.IsWhole)
    (hc0 : ¬cond0_0 i) (x0 : Vec Ideal S1x4096 .i32) (x1 : Vec Ideal S4096x64 .bf16) (xo2 : Vec Ideal S64x4096 .f32) :
    out0_B_2 c i arg2 harg2 arg3 harg3 arg4 harg4 hc0 x0 x1 xo2 = pointFn (i 0).val x0 x1 xo2 := by
  unfold out0_B_2
  rw [View.read_writes_eq_canon _ _ _ (cover0_B_2 c i arg2 harg2 arg3 harg3 arg4 harg4 hc0 x0 x1 xo2)]
  funext z
  refine View.canon_apply_of_pieces (pointFn (i 0).val x0 x1 xo2) _ ?_ z (cover0_B_2 c i arg2 harg2 arg3 harg3 arg4 harg4 hc0 x0 x1 xo2 z)
  unfold kernelRun0_B
  dsimp only
  sl_unfold_words
  simp only [pay1_eq, pay5_eq, pay7_eq, pay8_eq, pay9_eq, pay10_eq, pay11_eq, pay12_eq, pay13_eq, pay14_eq, pay15_eq, pay17_eq,
    pay18_eq, pay20_eq, pay21_eq, pay22_eq, keyLoad, rowLoad]
  intro p hp
  simp only [List.mem_cons, List.mem_nil_iff, or_false] at hp
  rcases hp with rfl | rfl | rfl | rfl | rfl | rfl | rfl | rfl | rfl | rfl | rfl | rfl | rfl | rfl | rfl | rfl
  · dsimp only
    intro y
    exact chunk_at (i 0).val 15 x0 x1 xo2 _ (vid_word _ 15) _ y _ rfl rfl (curLoad arg4 harg4 xo2 _ _ y)
  · dsimp only
    intro y
    exact chunk_at (i 0).val 14 x0 x1 xo2 _ (vid_word _ 14) _ y _ rfl rfl (curLoad arg4 harg4 xo2 _ _ y)
  · dsimp only
    intro y
    exact chunk_at (i 0).val 13 x0 x1 xo2 _ (vid_word _ 13) _ y _ rfl rfl (curLoad arg4 harg4 xo2 _ _ y)
  · dsimp only
    intro y
    exact chunk_at (i 0).val 12 x0 x1 xo2 _ (vid_word _ 12) _ y _ rfl rfl (curLoad arg4 harg4 xo2 _ _ y)
  · dsimp only
    intro y
    exact chunk_at (i 0).val 11 x0 x1 xo2 _ (vid_word _ 11) _ y _ rfl rfl (curLoad arg4 harg4 xo2 _ _ y)
  · dsimp only
    intro y
    exact chunk_at (i 0).val 10 x0 x1 xo2 _ (vid_word _ 10) _ y _ rfl rfl (curLoad arg4 harg4 xo2 _ _ y)
  · dsimp only
    intro y
    exact chunk_at (i 0).val 9 x0 x1 xo2 _ (vid_word _ 9) _ y _ rfl rfl (curLoad arg4 harg4 xo2 _ _ y)
  · dsimp only
    intro y
    exact chunk_at (i 0).val 8 x0 x1 xo2 _ (vid_word8 _) _ y _ rfl rfl (curLoad arg4 harg4 xo2 _ _ y)
  · dsimp only
    intro y
    exact chunk_at (i 0).val 7 x0 x1 xo2 _ (vid_word _ 7) _ y _ rfl rfl (curLoad arg4 harg4 xo2 _ _ y)
  · dsimp only
    intro y
    exact chunk_at (i 0).val 6 x0 x1 xo2 _ (vid_word _ 6) _ y _ rfl rfl (curLoad arg4 harg4 xo2 _ _ y)
  · dsimp only
    intro y
    exact chunk_at (i 0).val 5 x0 x1 xo2 _ (vid_word _ 5) _ y _ rfl rfl (curLoad arg4 harg4 xo2 _ _ y)
  · dsimp only
    intro y
    exact chunk_at (i 0).val 4 x0 x1 xo2 _ (vid_word _ 4) _ y _ rfl rfl (curLoad arg4 harg4 xo2 _ _ y)
  · dsimp only
    intro y
    exact chunk_at (i 0).val 3 x0 x1 xo2 _ (vid_word _ 3) _ y _ rfl rfl (curLoad arg4 harg4 xo2 _ _ y)
  · dsimp only
    intro y
    exact chunk_at (i 0).val 2 x0 x1 xo2 _ (vid_word _ 2) _ y _ rfl rfl (curLoad arg4 harg4 xo2 _ _ y)
  · dsimp only
    intro y
    exact chunk_at (i 0).val 1 x0 x1 xo2 _ (vid_word _ 1) _ y _ rfl rfl (curLoad arg4 harg4 xo2 _ _ y)
  · dsimp only
    intro y
    exact chunk_at (i 0).val 0 x0 x1 xo2 _ (vid_word _ 0) _ y _ rfl rfl (curLoad arg4 harg4 xo2 _ _ y)

end Cert.KernelIdeal.Val

end
-- ==== Proof.PointA.lean ====
/-
  What the first grid point of a column tile leaves in the output's staging buffer.

  The first point of a tile fills the staging buffer with zeros and then runs the same sixteen chunks. A chunk adds
  to what its 256 columns hold, and what they hold is still the zero of the fill: the chunks before it wrote other
  columns (to its left). So the point leaves its function over a zero buffer.
-/
import proofs.«401794_j13288628814370_2_alg».proof.Proof.Gen.KernelIdeal.Frame
import proofs.«401794_j13288628814370_2_alg».proof.Proof.Chunk
import proofs.«401794_j13288628814370_2_alg».proof.Proof.PointB
import Idealize.ShloMosaic.Lib.Pipeline.Value
import Idealize.ShloMosaic.Lib.Pipeline.CanonAppend
import Idealize.ShloMosaic.Lib.Ring
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx Idealize.ShloMosaic.Tactic

/-- The zero block the fill stores. -/
abbrev zeroBlk : Vec Ideal S64x4096 .f32 := k0_pay2 (F := Ideal)

theorem zeroBlk_apply (z : S64x4096.Idx) : zeroBlk z = 0 := by
  show Ideal.ofBits .f32 0x00000000#32 = 0
  exact Ideal.ofBits_zero_f32

/-- An index whose column is at or beyond the right edge of a chunk's 256 columns is not among them. -/
theorem not_mem_chunk (lo : Nat) (inb : ∀ a, (![0, lo] : Fin 2 → Nat) a + (![64, 256] : Fin 2 → Nat) a ≤ S64x4096.size a)
    (y : S64x4096.Idx) (hy : lo + 256 ≤ (y 1).val) :
    y ∉ (Rect.unit (s := S64x4096) ![0, lo] ![64, 256] inb).set := by
  rw [Rect.mem_set_unit]
  intro h
  have h1 := (h 1).2
  change (y 1).val < lo + 256 at h1
  omega

section Fill

variable (c : Dev nD) (i : grid0.Coords) (arg2 : Memref sig .tc .vmem S1x4096 .i32) (harg2 : arg2.IsWhole)
  (arg3 : Memref sig .tc .vmem S4096x64 .bf16) (harg3 : arg3.IsWhole) (arg4 : Memref sig .tc .vmem S64x4096 .f32)
  (x0 : Vec Ideal S1x4096 .i32) (x1 : Vec Ideal S4096x64 .bf16)

/-! After the fill and the first `k - 1` chunks, every column from `(k - 1) * 256` on still holds the fill's zero. -/

theorem zero1 (y : S64x4096.Idx) : View.canon (kernelRun0_A.sl.H2_1 (F := Ideal)) y = zeroBlk y := by
  unfold kernelRun0_A.sl.H2_1
  rw [View.canon_unit_zero zeroOff]
theorem zero2 (y : S64x4096.Idx) (hy : 256 ≤ (y 1).val) :
    View.canon (kernelRun0_A.sl.H2_2 (F := Ideal) c i arg2 harg2 arg3 harg3 arg4 x0 x1) y = zeroBlk y := by
  unfold kernelRun0_A.sl.H2_2
  refine (View.canon_cons_of_not_mem _ _ ?_).trans (zero1 y)
  dsimp only
  exact not_mem_chunk 0 _ y (by omega)
theorem zero3 (y : S64x4096.Idx) (hy : 512 ≤ (y 1).val) :
    View.canon (kernelRun0_A.sl.H2_3 (F := Ideal) c i arg2 harg2 arg3 harg3 arg4 x0 x1) y = zeroBlk y := by
  unfold kernelRun0_A.sl.H2_3
  refine (View.canon_cons_of_not_mem _ _ ?_).trans (zero2 c i arg2 harg2 arg3 harg3 arg4 x0 x1 y (by omega))
  dsimp only
  exact not_mem_chunk 256 _ y (by omega)
theorem zero4 (y : S64x4096.Idx) (hy : 768 ≤ (y 1).val) :
    View.canon (kernelRun0_A.sl.H2_4 (F := Ideal) c i arg2 harg2 arg3 harg3 arg4 x0 x1) y = zeroBlk y := by
  unfold kernelRun0_A.sl.H2_4
  refine (View.canon_cons_of_not_mem _ _ ?_).trans (zero3 c i arg2 harg2 arg3 harg3 arg4 x0 x1 y (by omega))
  dsimp only
  exact not_mem_chunk 512 _ y (by omega)
theorem zero5 (y : S64x4096.Idx) (hy : 1024 ≤ (y 1).val) :
    View.canon (kernelRun0_A.sl.H2_5 (F := Ideal) c i arg2 harg2 arg3 harg3 arg4 x0 x1) y = zeroBlk y := by
  unfold kernelRun0_A.sl.H2_5
  refine (View.canon_cons_of_not_mem _ _ ?_).trans (zero4 c i arg2 harg2 arg3 harg3 arg4 x0 x1 y (by omega))
  dsimp only
  exact not_mem_chunk 768 _ y (by omega)
theorem zero6 (y : S64x4096.Idx) (hy : 1280 ≤ (y 1).val) :
    View.canon (kernelRun0_A.sl.H2_6 (F := Ideal) c i arg2 harg2 arg3 harg3 arg4 x0 x1) y = zeroBlk y := by
  unfold kernelRun0_A.sl.H2_6
  refine (View.canon_cons_of_not_mem _ _ ?_).trans (zero5 c i arg2 harg2 arg3 harg3 arg4 x0 x1 y (by omega))
  dsimp only
  exact not_mem_chunk 1024 _ y (by omega)
theorem zero7 (y : S64x4096.Idx) (hy : 1536 ≤ (y 1).val) :
    View.canon (kernelRun0_A.sl.H2_7 (F := Ideal) c i arg2 harg2 arg3 harg3 arg4 x0 x1) y = zeroBlk y := by
  unfold kernelRun0_A.sl.H2_7
  refine (View.canon_cons_of_not_mem _ _ ?_).trans (zero6 c i arg2 harg2 arg3 harg3 arg4 x0 x1 y (by omega))
  dsimp only
  exact not_mem_chunk 1280 _ y (by omega)
theorem zero8 (y : S64x4096.Idx) (hy : 1792 ≤ (y 1).val) :
    View.canon (kernelRun0_A.sl.H2_8 (F := Ideal) c i arg2 harg2 arg3 harg3 arg4 x0 x1) y = zeroBlk y := by
  unfold kernelRun0_A.sl.H2_8
  refine (View.canon_cons_of_not_mem _ _ ?_).trans (zero7 c i arg2 harg2 arg3 harg3 arg4 x0 x1 y (by omega))
  dsimp only
  exact not_mem_chunk 1536 _ y (by omega)
theorem zero9 (y : S64x4096.Idx) (hy : 2048 ≤ (y 1).val) :
    View.canon (kernelRun0_A.sl.H2_9 (F := Ideal) c i arg2 harg2 arg3 harg3 arg4 x0 x1) y = zeroBlk y := by
  unfold kernelRun0_A.sl.H2_9
  refine (View.canon_cons_of_not_mem _ _ ?_).trans (zero8 c i arg2 harg2 arg3 harg3 arg4 x0 x1 y (by omega))
  dsimp only
  exact not_mem_chunk 1792 _ y (by omega)
theorem zero10 (y : S64x4096.Idx) (hy : 2304 ≤ (y 1).val) :
    View.canon (kernelRun0_A.sl.H2_10 (F := Ideal) c i arg2 harg2 arg3 harg3 arg4 x0 x1) y = zeroBlk y := by
  unfold kernelRun0_A.sl.H2_10
  refine (View.canon_cons_of_not_mem _ _ ?_).trans (zero9 c i arg2 harg2 arg3 harg3 arg4 x0 x1 y (by omega))
  dsimp only
  exact not_mem_chunk 2048 _ y (by omega)
theorem zero11 (y : S64x4096.Idx) (hy : 2560 ≤ (y 1).val) :
    View.canon (kernelRun0_A.sl.H2_11 (F := Ideal) c i arg2 harg2 arg3 harg3 arg4 x0 x1) y = zeroBlk y := by
  unfold kernelRun0_A.sl.H2_11
  refine (View.canon_cons_of_not_mem _ _ ?_).trans (zero10 c i arg2 harg2 arg3 harg3 arg4 x0 x1 y (by omega))
  dsimp only
  exact not_mem_chunk 2304 _ y (by omega)
theorem zero12 (y : S64x4096.Idx) (hy : 2816 ≤ (y 1).val) :
    View.canon (kernelRun0_A.sl.H2_12 (F := Ideal) c i arg2 harg2 arg3 harg3 arg4 x0 x1) y = zeroBlk y := by
  unfold kernelRun0_A.sl.H2_12
  refine (View.canon_cons_of_not_mem _ _ ?_).trans (zero11 c i arg2 harg2 arg3 harg3 arg4 x0 x1 y (by omega))
  dsimp only
  exact not_mem_chunk 2560 _ y (by omega)
theorem zero13 (y : S64x4096.Idx) (hy : 3072 ≤ (y 1).val) :
    View.canon (kernelRun0_A.sl.H2_13 (F := Ideal) c i arg2 harg2 arg3 harg3 arg4 x0 x1) y = zeroBlk y := by
  unfold kernelRun0_A.sl.H2_13
  refine (View.canon_cons_of_not_mem _ _ ?_).trans (zero12 c i arg2 harg2 arg3 harg3 arg4 x0 x1 y (by omega))
  dsimp only
  exact not_mem_chunk 2816 _ y (by omega)
theorem zero14 (y : S64x4096.Idx) (hy : 3328 ≤ (y 1).val) :
    View.canon (kernelRun0_A.sl.H2_14 (F := Ideal) c i arg2 harg2 arg3 harg3 arg4 x0 x1) y = zeroBlk y := by
  unfold kernelRun0_A.sl.H2_14
  refine (View.canon_cons_of_not_mem _ _ ?_).trans (zero13 c i arg2 harg2 arg3 harg3 arg4 x0 x1 y (by omega))
  dsimp only
  exact not_mem_chunk 3072 _ y (by omega)
theorem zero15 (y : S64x4096.Idx) (hy : 3584 ≤ (y 1).val) :
    View.canon (kernelRun0_A.sl.H2_15 (F := Ideal) c i arg2 harg2 arg3 harg3 arg4 x0 x1) y = zeroBlk y := by
  unfold kernelRun0_A.sl.H2_15
  refine (View.canon_cons_of_not_mem _ _ ?_).trans (zero14 c i arg2 harg2 arg3 harg3 arg4 x0 x1 y (by omega))
  dsimp only
  exact not_mem_chunk 3328 _ y (by omega)
theorem zero16 (y : S64x4096.Idx) (hy : 3840 ≤ (y 1).val) :
    View.canon (kernelRun0_A.sl.H2_16 (F := Ideal) c i arg2 harg2 arg3 harg3 arg4 x0 x1) y = zeroBlk y := by
  unfold kernelRun0_A.sl.H2_16
  refine (View.canon_cons_of_not_mem _ _ ?_).trans (zero15 c i arg2 harg2 arg3 harg3 arg4 x0 x1 y (by omega))
  dsimp only
  exact not_mem_chunk 3584 _ y (by omega)

/-- A chunk's load of its 256 columns, after stores that left the columns from `lo` on at the fill's zero, reads zero. -/
theorem curZero (L : List (View.Piece (Elt Ideal) S64x4096 .f32)) (lo : Nat)
    (inb : ∀ a, (![0, lo] : Fin 2 → Nat) a + (![64, 256] : Fin 2 → Nat) a ≤ S64x4096.size a)
    (hL : ∀ y : S64x4096.Idx, lo ≤ (y 1).val → View.canon L y = zeroBlk y) (y : S64x256.Idx) :
    arg4.view.readCov L (Rect.unit (s := S64x4096) ![0, lo] ![64, 256] inb).toLoadRect y
      = zeroBlk ((Rect.unit (s := S64x4096) ![0, lo] ![64, 256] inb).emb y) := by
  rw [View.readCov_eq_canon']
  exact hL _ (by show lo ≤ lo + 1 * (y 1).val; omega)

end Fill

/-- CASE A (the first point of a tile): the body leaves the point's function of the key block `x0` and the table block
    `x1` over a zero buffer — each of its sixteen chunk stores is that function's block at the store's columns, and
    together they cover the buffer, over the fill. -/
theorem out_A (c : Dev nD) (i : grid0.Coords) (arg2 : Memref sig .tc .vmem S1x4096 .i32) (harg2 : arg2.IsWhole)
    (arg3 : Memref sig .tc .vmem S4096x64 .bf16) (harg3 : arg3.IsWhole) (arg4 : Memref sig .tc .vmem S64x4096 .f32) (harg4 : arg4.IsWhole)
    (hc0 : cond0_0 i) (x0 : Vec Ideal S1x4096 .i32) (x1 : Vec Ideal S4096x64 .bf16) :
    out0_A_2 c i arg2 harg2 arg3 harg3 arg4 harg4 hc0 x0 x1 = pointFn (i 0).val x0 x1 zeroBlk := by
  unfold out0_A_2
  rw [View.read_writes_eq_canon _ _ _ (cover0_A_2 c i arg2 harg2 arg3 harg3 arg4 harg4 hc0 x0 x1)]
  funext z
  unfold kernelRun0_A
  dsimp only
  simp only [kernelRun0_A.sl.H2_16, kernelRun0_A.sl.H2_15, kernelRun0_A.sl.H2_14, kernelRun0_A.sl.H2_13, kernelRun0_A.sl.H2_12,
    kernelRun0_A.sl.H2_11, kernelRun0_A.sl.H2_10, kernelRun0_A.sl.H2_9, kernelRun0_A.sl.H2_8, kernelRun0_A.sl.H2_7, kernelRun0_A.sl.H2_6,
    kernelRun0_A.sl.H2_5, kernelRun0_A.sl.H2_4, kernelRun0_A.sl.H2_3, kernelRun0_A.sl.H2_2, kernelRun0_A.sl.H2_1]
  simp only [kernelRun0_A.sl.r_6, kernelRun0_A.sl.r_5, kernelRun0_A.sl.r_4, kernelRun0_A.sl.r_3, kernelRun0_A.sl.r_2, kernelRun0_A.sl.r_1,
    kernelRun0_A.sl.r, kernelRun0_A.sl.cst_9, kernelRun0_A.sl.v170, kernelRun0_A.sl.v169, kernelRun0_A.sl.v171,
    kernelRun0_A.sl.v22, kernelRun0_A.sl.v42, kernelRun0_A.sl.v62, kernelRun0_A.sl.v82, kernelRun0_A.sl.v102, kernelRun0_A.sl.v122, kernelRun0_A.sl.v142, kernelRun0_A.sl.v162, kernelRun0_A.sl.v182, kernelRun0_A.sl.v202, kernelRun0_A.sl.v222, kernelRun0_A.sl.v242, kernelRun0_A.sl.v262, kernelRun0_A.sl.v282, kernelRun0_A.sl.v302, kernelRun0_A.sl.v322]
  simp only [pay1_eq, pay5_eq, pay7_eq, pay8_eq, pay9_eq, pay10_eq, pay11_eq, pay12_eq, pay13_eq, pay14_eq, pay15_eq, pay17_eq,
    pay18_eq, pay20_eq, pay21_eq, pay22_eq, keyLoad, rowLoad]
  refine View.canon_append_of_pieces (Val := Elt Ideal) (S := S64x4096) (e := .f32) (pointFn (i 0).val x0 x1 zeroBlk) [_] [_, _, _, _, _, _, _, _, _, _, _, _, _, _, _, _] ?_ z ?_
  · intro p hp
    simp only [List.mem_cons, List.mem_nil_iff, or_false] at hp
    rcases hp with rfl | rfl | rfl | rfl | rfl | rfl | rfl | rfl | rfl | rfl | rfl | rfl | rfl | rfl | rfl | rfl
    · dsimp only
      intro y
      exact chunk_at (i 0).val 15 x0 x1 zeroBlk _ (vid_word _ 15) _ y _ rfl rfl (curZero arg4 _ 3840 _ (fun y hy => zero16 c i arg2 harg2 arg3 harg3 arg4 x0 x1 y hy) y)
    · dsimp only
      intro y
      exact chunk_at (i 0).val 14 x0 x1 zeroBlk _ (vid_word _ 14) _ y _ rfl rfl (curZero arg4 _ 3584 _ (fun y hy => zero15 c i arg2 harg2 arg3 harg3 arg4 x0 x1 y hy) y)
    · dsimp only
      intro y
      exact chunk_at (i 0).val 13 x0 x1 zeroBlk _ (vid_word _ 13) _ y _ rfl rfl (curZero arg4 _ 3328 _ (fun y hy => zero14 c i arg2 harg2 arg3 harg3 arg4 x0 x1 y hy) y)
    · dsimp only
      intro y
      exact chunk_at (i 0).val 12 x0 x1 zeroBlk _ (vid_word _ 12) _ y _ rfl rfl (curZero arg4 _ 3072 _ (fun y hy => zero13 c i arg2 harg2 arg3 harg3 arg4 x0 x1 y hy) y)
    · dsimp only
      intro y
      exact chunk_at (i 0).val 11 x0 x1 zeroBlk _ (vid_word _ 11) _ y _ rfl rfl (curZero arg4 _ 2816 _ (fun y hy => zero12 c i arg2 harg2 arg3 harg3 arg4 x0 x1 y hy) y)
    · dsimp only
      intro y
      exact chunk_at (i 0).val 10 x0 x1 zeroBlk _ (vid_word _ 10) _ y _ rfl rfl (curZero arg4 _ 2560 _ (fun y hy => zero11 c i arg2 harg2 arg3 harg3 arg4 x0 x1 y hy) y)
    · dsimp only
      intro y
      exact chunk_at (i 0).val 9 x0 x1 zeroBlk _ (vid_word _ 9) _ y _ rfl rfl (curZero arg4 _ 2304 _ (fun y hy => zero10 c i arg2 harg2 arg3 harg3 arg4 x0 x1 y hy) y)
    · dsimp only
      intro y
      exact chunk_at (i 0).val 8 x0 x1 zeroBlk _ (vid_word8 _) _ y _ rfl rfl (curZero arg4 _ 2048 _ (fun y hy => zero9 c i arg2 harg2 arg3 harg3 arg4 x0 x1 y hy) y)
    · dsimp only
      intro y
      exact chunk_at (i 0).val 7 x0 x1 zeroBlk _ (vid_word _ 7) _ y _ rfl rfl (curZero arg4 _ 1792 _ (fun y hy => zero8 c i arg2 harg2 arg3 harg3 arg4 x0 x1 y hy) y)
    · dsimp only
      intro y
      exact chunk_at (i 0).val 6 x0 x1 zeroBlk _ (vid_word _ 6) _ y _ rfl rfl (curZero arg4 _ 1536 _ (fun y hy => zero7 c i arg2 harg2 arg3 harg3 arg4 x0 x1 y hy) y)
    · dsimp only
      intro y
      exact chunk_at (i 0).val 5 x0 x1 zeroBlk _ (vid_word _ 5) _ y _ rfl rfl (curZero arg4 _ 1280 _ (fun y hy => zero6 c i arg2 harg2 arg3 harg3 arg4 x0 x1 y hy) y)
    · dsimp only
      intro y
      exact chunk_at (i 0).val 4 x0 x1 zeroBlk _ (vid_word _ 4) _ y _ rfl rfl (curZero arg4 _ 1024 _ (fun y hy => zero5 c i arg2 harg2 arg3 harg3 arg4 x0 x1 y hy) y)
    · dsimp only
      intro y
      exact chunk_at (i 0).val 3 x0 x1 zeroBlk _ (vid_word _ 3) _ y _ rfl rfl (curZero arg4 _ 768 _ (fun y hy => zero4 c i arg2 harg2 arg3 harg3 arg4 x0 x1 y hy) y)
    · dsimp only
      intro y
      exact chunk_at (i 0).val 2 x0 x1 zeroBlk _ (vid_word _ 2) _ y _ rfl rfl (curZero arg4 _ 512 _ (fun y hy => zero3 c i arg2 harg2 arg3 harg3 arg4 x0 x1 y hy) y)
    · dsimp only
      intro y
      exact chunk_at (i 0).val 1 x0 x1 zeroBlk _ (vid_word _ 1) _ y _ rfl rfl (curZero arg4 _ 256 _ (fun y hy => zero2 c i arg2 harg2 arg3 harg3 arg4 x0 x1 y hy) y)
    · dsimp only
      intro y
      exact chunk_at (i 0).val 0 x0 x1 zeroBlk _ (vid_word _ 0) _ y _ rfl rfl (curZero arg4 _ 0 _ (fun y _ => zero1 y) y)
  · exact View.cover_of_tiledL (s := S64x4096) _ ![64, 256] (by sl_kernel_rfl) z

end Cert.KernelIdeal.Val

end
-- ==== Proof.LibBlockSum.lean ====
/-
  Sums over a range cut into equal blocks, and an accumulator that adds one block sum per step.

  A contraction of length `K = nb * bs` computed block by block — `nb` steps, each adding the sum over one block of
  `bs` consecutive terms to what the step before left, the first step starting from the first block's sum alone —
  ends at the sum over the whole range. Stated over an arbitrary commutative monoid and an arbitrary way `e` of
  naming the term at position `l` of block `kb`, so that it serves any block count and block size.
-/
import Mathlib.Algebra.BigOperators.Fin
import Mathlib.Data.Fintype.BigOperators
import Mathlib.Logic.Equiv.Fin.Basic

namespace Cert.LibBlockSum

open scoped BigOperators

/-- The sum over the blocks of the sums inside each block is the sum over the whole range: with `K = nb * bs` and
    `e kb l` the term at position `l` of block `kb`, that is at `kb * bs + l`,
    `∑ kb, ∑ l, f (e kb l) = ∑ k, f k`. -/
theorem sum_blocks {M : Type*} [AddCommMonoid M] {nb bs K : ℕ} (hK : nb * bs = K) (f : Fin K → M)
    (e : Fin nb → Fin bs → Fin K) (he : ∀ kb l, (e kb l).val = kb.val * bs + l.val) :
    ∑ kb : Fin nb, ∑ l : Fin bs, f (e kb l) = ∑ k : Fin K, f k := by
  subst hK
  rw [← Fintype.sum_prod_type', ← Equiv.sum_comp finProdFinEquiv f]
  refine Fintype.sum_congr _ _ fun p => congrArg f (Fin.ext ?_)
  rw [he]
  show p.1.val * bs + p.2.val = p.2.val + bs * p.1.val
  rw [Nat.mul_comm, Nat.add_comm]

/-- An accumulator that holds `B 0` after step `0` and adds `B (k + 1)` at step `k + 1` holds, after step `k`, the
    sum of `B` over the steps up to `k`. -/
theorem acc_eq_partial {M : Type*} [AddCommMonoid M] {nb : ℕ} (a B : Fin (nb + 1) → M)
    (h0 : a 0 = B 0)
    (hs : ∀ (k : ℕ) (h : k + 1 < nb + 1), a ⟨k + 1, h⟩ = a ⟨k, Nat.lt_of_succ_lt h⟩ + B ⟨k + 1, h⟩) :
    ∀ (k : ℕ) (h : k < nb + 1), a ⟨k, h⟩ = ∑ i : Fin (k + 1), B (Fin.castLE (Nat.succ_le_of_lt h) i)
  | 0, h => by
    rw [Fin.sum_univ_one]
    exact h0
  | k + 1, h => by
    rw [hs k h, acc_eq_partial a B h0 hs k (Nat.lt_of_succ_lt h)]
    exact (Fin.sum_univ_castSucc (fun i : Fin (k + 1 + 1) => B (Fin.castLE (Nat.succ_le_of_lt h) i))).symm

/-- So after the last step it holds the sum of all of `B`. -/
theorem acc_last_eq_sum {M : Type*} [AddCommMonoid M] {nb : ℕ} (a B : Fin (nb + 1) → M)
    (h0 : a 0 = B 0)
    (hs : ∀ (k : ℕ) (h : k + 1 < nb + 1), a ⟨k + 1, h⟩ = a ⟨k, Nat.lt_of_succ_lt h⟩ + B ⟨k + 1, h⟩) :
    a (Fin.last nb) = ∑ i : Fin (nb + 1), B i :=
  (acc_eq_partial a B h0 hs nb (Nat.lt_succ_self nb)).trans
    (Fintype.sum_congr _ _ fun i => congrArg B (Fin.ext rfl))

/-- The blocked contraction: an accumulator that holds the first block's sum after step `0` and adds block `k + 1`'s
    sum at step `k + 1` ends, after the last of the `nb + 1` steps, at the sum over the whole range of length
    `K = (nb + 1) * bs`. -/
theorem blocked_acc_eq_sum {M : Type*} [AddCommMonoid M] {nb bs K : ℕ} (hK : (nb + 1) * bs = K) (f : Fin K → M)
    (e : Fin (nb + 1) → Fin bs → Fin K) (he : ∀ kb l, (e kb l).val = kb.val * bs + l.val)
    (a : Fin (nb + 1) → M)
    (h0 : a 0 = ∑ l : Fin bs, f (e 0 l))
    (hs : ∀ (k : ℕ) (h : k + 1 < nb + 1),
      a ⟨k + 1, h⟩ = a ⟨k, Nat.lt_of_succ_lt h⟩ + ∑ l : Fin bs, f (e ⟨k + 1, h⟩ l)) :
    a (Fin.last nb) = ∑ k : Fin K, f k :=
  (acc_last_eq_sum a (fun kb => ∑ l : Fin bs, f (e kb l)) h0 hs).trans (sum_blocks hK f e he)

end Cert.LibBlockSum
-- ==== Proof.Accum.lean ====
/-
  What the output's staging buffer holds after the last grid point of a column tile.

  Over the 489 steps of a column tile the staging buffer is an accumulator: the first step leaves the sum of its own
  4096 rows' terms, every later step adds its own 4096 rows' terms to what the step before left. The 489 blocks of 4096
  rows are the 2,002,944 padded rows in order, so after the last step the buffer holds the sum over all padded rows.
-/
import proofs.«401794_j13288628814370_2_alg».proof.Proof.Names
import proofs.«401794_j13288628814370_2_alg».proof.Proof.HostIn
import proofs.«401794_j13288628814370_2_alg».proof.Proof.PointA
import proofs.«401794_j13288628814370_2_alg».proof.Proof.PointB
import proofs.«401794_j13288628814370_2_alg».proof.Proof.GridFacts
import proofs.«401794_j13288628814370_2_alg».proof.Proof.LibBlockSum

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The first point of a tile leaves its own function over the zero buffer. -/
theorem accAfter_first (c : Dev nD) (t : Fin cfg0.N) (h0 : t.val % 489 = 0) :
    accAfter m c t = pointFn (t.val / 489) (keyBlk m c t) (rowBlk m c t) zeroBlk := by
  rw [← tile_of t]
  exact (outsAt0_A m c t h0).trans
    (out_A c (grid0.coords t) (ms0_0 t) (hs0_0 t) (ms0_1 t) (hs0_1 t) (ms0_2 t) (hs0_2 t) ((hcond0_0 t).mpr h0) (iblk m c 0 t) (iblk m c 1 t))

/-- Every other point leaves its own function over what the point before left. -/
theorem accAfter_next (c : Dev nD) (t : Fin cfg0.N) (h0 : ¬t.val % 489 = 0) :
    accAfter m c t = pointFn (t.val / 489) (keyBlk m c t) (rowBlk m c t)
      (outsAt0 m c (t.val - 1) (Nat.lt_of_le_of_lt (Nat.sub_le _ _) t.isLt)) := by
  rw [← tile_of t]
  exact (outsAt0_B m c t h0).trans
    (out_B c (grid0.coords t) (ms0_0 t) (hs0_0 t) (ms0_1 t) (hs0_1 t) (ms0_2 t) (hs0_2 t) (fun h => h0 ((hcond0_0 t).mp h))
      (iblk m c 0 t) (iblk m c 1 t) (outsAt0 m c (t.val - 1) (Nat.lt_of_le_of_lt (Nat.sub_le _ _) t.isLt)))

/-- Step `b` of column tile `vt`, as a grid point. -/
def tilePoint (vt : Fin 25) (b : Fin 489) : Fin cfg0.N :=
  ⟨vt.val * 489 + b.val, by rw [show cfg0.N = 12225 from N_0]; omega⟩

/-- The term of padded row `r` in the total for feature `d`, column `v`. -/
def rowTerm (c : Dev nD) (d : Fin 64) (v : Nat) (r : Fin 2002944) : EReal :=
  Cert.Agg.rowPad (Harg m c) r d * Cert.Agg.hit (Cert.Agg.keyPad (Xarg m c) r) v

/-- Row `l` of block `b` among the padded rows. -/
def blockRow (b : Fin (488 + 1)) (l : Fin 4096) : Fin 2002944 := ⟨b.val * 4096 + l.val, by omega⟩

/-- The terms a point adds are the terms of its block of padded rows. -/
theorem point_terms (c : Dev nD) (vt : Fin 25) (b : Fin (488 + 1)) (d : Fin 64) (v : Nat) :
    ∑ k : Fin 4096, rowBlk m c (tilePoint vt b) (ix2 k d) * Cert.Agg.hit (keyBlk m c (tilePoint vt b) (ix2 0 k)) v
      = ∑ l : Fin 4096, rowTerm m c d v (blockRow b l) := by
  have hb : (tilePoint vt b).val % 489 = b.val := by show (vt.val * 489 + b.val) % 489 = b.val; omega
  refine Finset.sum_congr rfl fun k _ => ?_
  have hi : ((tilePoint vt b).val % 489) * 4096 + k.val < 2002944 := by rw [hb]; omega
  rw [rowBlk_apply m c (tilePoint vt b) k d hi, keyBlk_apply m c (tilePoint vt b) k hi]
  have hr : (⟨((tilePoint vt b).val % 489) * 4096 + k.val, hi⟩ : Fin 2002944) = blockRow b k := Fin.ext (by
    show ((tilePoint vt b).val % 489) * 4096 + k.val = b.val * 4096 + k.val; rw [hb])
  rw [hr]
  rfl

/-- After the last point of column tile `t / 489` (the points with `t mod 489 = 488`) the staging buffer holds, at
    feature `d` and local column `col`, the kernel's total for column `(t / 489) * 4096 + col`. -/
theorem accAfter_last (c : Dev nD) (t : Fin cfg0.N) (ht : t.val % 489 = 488) (d : Fin 64) (col : Fin 4096) :
    accAfter m c t (ix2 d col) = Cert.Agg.total (Harg m c) (Xarg m c) d ((t.val / 489) * 4096 + col.val) := by
  have hN := point_lt t
  obtain ⟨vt, hvt⟩ : ∃ vt : Fin 25, vt.val = t.val / 489 := ⟨⟨t.val / 489, by omega⟩, rfl⟩
  have htp : t = tilePoint vt (Fin.last 488) := Fin.ext (by show t.val = vt.val * 489 + 488; omega)
  rw [← hvt, htp]
  have hdiv : ∀ b : Fin 489, (tilePoint vt b).val / 489 = vt.val := fun b => by
    show (vt.val * 489 + b.val) / 489 = vt.val; omega
  refine Cert.LibBlockSum.blocked_acc_eq_sum (nb := 488) (bs := 4096) (K := 2002944) (by norm_num)
    (rowTerm m c d (vt.val * 4096 + col.val)) blockRow (fun _ _ => rfl)
    (fun b => accAfter m c (tilePoint vt b) (ix2 d col)) ?_ ?_
  · -- the first step: zero plus its own terms
    have h0 : (tilePoint vt 0).val % 489 = 0 := by show (vt.val * 489 + 0) % 489 = 0; omega
    show accAfter m c (tilePoint vt 0) (ix2 d col) = _
    rw [accAfter_first m c (tilePoint vt 0) h0, pointFn_apply, hdiv 0]
    unfold pointVal
    rw [zeroBlk_apply, zero_add]
    exact point_terms m c vt 0 d _
  · -- a later step: what the step before left plus its own terms
    intro k hk
    have h1 : ¬(tilePoint vt ⟨k + 1, hk⟩).val % 489 = 0 := by show ¬(vt.val * 489 + (k + 1)) % 489 = 0; omega
    show accAfter m c (tilePoint vt ⟨k + 1, hk⟩) (ix2 d col) = accAfter m c (tilePoint vt ⟨k, Nat.lt_of_succ_lt hk⟩) (ix2 d col) + _
    rw [accAfter_next m c (tilePoint vt ⟨k + 1, hk⟩) h1, pointFn_apply, hdiv ⟨k + 1, hk⟩]
    unfold pointVal
    rw [point_terms m c vt ⟨k + 1, hk⟩ d _]
    congr 1

end Cert.KernelIdeal.Val

end
-- ==== Proof.Final.lean ====
/-
  The kernel's run, read: its result array ends at the kernel's totals, sliced and transposed.
-/
import proofs.«401794_j13288628814370_2_alg».proof.Proof.Accum
import proofs.«401794_j13288628814370_2_alg».proof.Proof.GridFacts
import Idealize.ShloMosaic.Lib.Pipeline.Value
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The kernel's totals laid out as its output array [64, 102400]: entry (d, v) is the total of feature d for column v. -/
def outTotals (c : Dev nD) : S64x102400.Idx → EReal :=
  fun z => Cert.Agg.total (Harg m c) (Xarg m c) ⟨(z 0).val, idx2_lt0 z⟩ (z 1).val

/-- The array of totals read at an index whose coordinates are known. -/
theorem outTotals_at (c : Dev nD) (z : S64x102400.Idx) (d : Fin 64) (v : Nat) (h0 : (z 0).val = d.val) (h1 : (z 1).val = v) :
    outTotals m c z = Cert.Agg.total (Harg m c) (Xarg m c) d v := by
  unfold outTotals
  rw [show (⟨(z 0).val, idx2_lt0 z⟩ : Fin 64) = d from Fin.ext h0, h1]

/-- What a point that writes the output back writes is its block of the array of totals: after the last step of column
    tile t / 489 the staging buffer holds that tile's totals, and the block sits in the array at column t / 489 * 4096. -/
theorem outFlushed_eq (c : Dev nD) (t : Fin cfg0.N) (hf : (cfg0.win 2).flush t = true) :
    (dats m 0 c).flushed 2 t = ((cfg0.win 2).blk t).view.read (Elt Ideal) (outTotals m c) := by
  have ht : t.val % 489 = 488 := (flush0_2 t).mp hf
  obtain ⟨i0, i1⟩ := outIndex t
  show (cfg0.win 2).cut (grid0.coords t) ((dats m 0 c).after 2 t) = _
  rw [after0_2]
  funext j
  have hj0 : (j 0).val < 64 := (j 0).isLt
  have hj1 : (j 1).val < 4096 := (j 1).isLt
  rw [View.read_apply]
  show outsAt0 m c t.val t.isLt ((cfg0.win 2).xinj (grid0.coords t) j) = _
  have e : (cfg0.win 2).xinj (grid0.coords t) j = ix2 (⟨(j 0).val, hj0⟩ : Fin 64) (⟨(j 1).val, hj1⟩ : Fin 4096) := by
    funext a; match a with | ⟨0, _⟩ => rfl | ⟨1, _⟩ => rfl
  rw [e]
  refine (accAfter_last m c t ht ⟨(j 0).val, hj0⟩ ⟨(j 1).val, hj1⟩).trans ?_
  refine Eq.trans (Eq.symm ?_) (cast_eq _ _).symm
  refine outTotals_at m c _ _ _ ?_ ?_
  · show win0_2.index t 0 * 64 + 1 * (j 0).val = (j 0).val
    rw [i0]; omega
  · show win0_2.index t 1 * 4096 + 1 * (j 1).val = t.val / 489 * 4096 + (j 1).val
    rw [i1]; omega

/-- Every entry of the output array is written back: column v lies in the block of the last step of tile v / 4096
    (25 tiles of 4096 columns are the 102,400 columns exactly). -/
theorem outCover (z : S64x102400.Idx) :
    ∃ t : Fin cfg0.N, (cfg0.win 2).flush t = true ∧ z ∈ ((cfg0.win 2).blk t).view.set := by
  have h0 : (z 0).val < 64 := (z 0).isLt
  have h1 : (z 1).val < 102400 := (z 1).isLt
  have hN : cfg0.N = 12225 := N_0
  have hlt : (z 1).val / 4096 * 489 + 488 < cfg0.N := by rw [hN]; omega
  obtain ⟨i0, i1⟩ := outIndex ⟨(z 1).val / 4096 * 489 + 488, hlt⟩
  refine ⟨⟨(z 1).val / 4096 * 489 + 488, hlt⟩,
    (flush0_2 _).mpr (by show ((z 1).val / 4096 * 489 + 488) % 489 = 488; omega), ?_⟩
  show z ∈ ((View.whole main_v4).slice (win0_2.rect ⟨(z 1).val / 4096 * 489 + 488, hlt⟩)).set
  rw [View.set_slice_whole, Rect.mem_set_unit]
  intro a
  match a with
  | ⟨0, _⟩ =>
    show win0_2.index ⟨(z 1).val / 4096 * 489 + 488, hlt⟩ 0 * 64 ≤ (z 0).val
      ∧ (z 0).val < win0_2.index ⟨(z 1).val / 4096 * 489 + 488, hlt⟩ 0 * 64 + 64
    rw [i0]; omega
  | ⟨1, _⟩ =>
    show win0_2.index ⟨(z 1).val / 4096 * 489 + 488, hlt⟩ 1 * 4096 ≤ (z 1).val
      ∧ (z 1).val < win0_2.index ⟨(z 1).val / 4096 * 489 + 488, hlt⟩ 1 * 4096 + 4096
    rw [i1]
    show ((z 1).val / 4096 * 489 + 488) / 489 * 4096 ≤ (z 1).val
      ∧ (z 1).val < ((z 1).val / 4096 * 489 + 488) / 489 * 4096 + 4096
    omega

/-- So the output array ends holding the totals. -/
theorem outFinal (c : Dev nD) : (dats m 0 c).arrAt 2 cfg0.N = outTotals m c :=
  (dats m 0 c).arrAt_eq_of_cover 2 (outTotals m c) (outFlushed_eq m c) outCover

/-- The two host operations after the region, read at an index: the first 100,000 columns of a [64, 102400] array,
    transposed, hold at (v, d) the array's entry (d, v). -/
theorem tail_read (G : S64x102400.Idx → EReal) (v : Fin 100000) (d : Fin 64) (hv : v.val < 102400) :
    transpose S100000x64 [1, 0] (extractStridedSlice S64x100000 ![0, 0] G slices_S64x102400_S64x100000_0_0)
        transposes_S64x100000_S100000x64_1_0 (ix2 v d)
      = G (ix2 d (⟨v.val, hv⟩ : Fin 102400)) := by
  refine (transpose_apply [1, 0] _ transposes_S64x100000_S100000x64_1_0 (ix2 v d) (ix2 d v) (fun b => ?_)).trans ?_
  · match b with
    | ⟨0, _⟩ => rfl
    | ⟨1, _⟩ => rfl
  refine extractStridedSlice_apply ![0, 0] G slices_S64x102400_S64x100000_0_0 (ix2 d v)
    (ix2 d (⟨v.val, hv⟩ : Fin 102400)) (fun a => ?_)
  match a with
  | ⟨0, _⟩ => show d.val = 0 + d.val; omega
  | ⟨1, _⟩ => show v.val = 0 + v.val; omega

/-- The result buffer after the two host operations that follow the region: entry (v, d) of the result is entry (d, v)
    of the array of totals. -/
theorem result_eq (c : Dev nD) :
    Pipeline.afterTail₀ cfgs (dats m) 0 (V0 m) [hostOps1] c main_v6 = Cert.Agg.resultOf (Harg m c) (Xarg m c) := by
  have hA : Pipeline.withArrays (cfgs 0).spec c (V0 m c) (fun w => (dats m 0 c).arrAt w (cfgs 0).N) (Proc.devRef .tc main_v4)
      = outTotals m c :=
    (Pipeline.withArrays_arr spec0 launch0.win.arr_inj c _ _ 2).trans (outFinal m c)
  unfold Pipeline.afterTail₀
  show StableHlo.after hostOps1 _ (Proc.devRef .tc main_v6) = _
  after_results
  rw [hA]
  funext i
  obtain ⟨v, d, rfl⟩ : ∃ (v : Fin 100000) (d : Fin 64), i = ix2 v d := ⟨i 0, i 1, eq_ix2 i⟩
  have hv : v.val < 102400 := by have := v.isLt; omega
  exact (tail_read (outTotals m c) v d hv).trans (outTotals_at m c _ d v.val rfl rfl)

/-- Every weakly fair execution of the kernel's program terminates with its result at the kernel's totals read
    transposed over the first 100,000 columns, and the arguments unchanged. -/
theorem run : θ_run defs (onTc (τ := τ) (main (F := Ideal))) ⟨m, fun _ => 0, ρ⟩ fun r => ∀ c : Dev nD,
      r.2.mem ((c.tc : Thread nD τ).loc main_v6) = Cert.Agg.resultOf (Harg m c) (Xarg m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Val

end
-- ==== Proof.LibScatterGather.lean ====
/-
  The host's gather and accumulating scatter, read at one index, for the shapes this program uses: a table of `n` rows
  (scalars, or rows of `h` numbers) addressed through an [m × 1] column of 32-bit start indices.

  A SCATTER reads the start index signed and does not clamp it: update `e` is added to row `landing n (idx e)`, which is
  nowhere when the index is negative or at least `n` (the update is dropped). So the result at row `k` is the operand
  there plus the sum of the updates whose index lands on `k`; for rows of `h` numbers, feature by feature.
  A GATHER reads the start index signed and clamps it into the table: result row `e` is the table's row
  `rowOf n (idx e)`.
  Two facts tie them together: an index that lands on `k` is the word of `k` (so comparing an index with the word of a
  row number decides landing), and an index that lands on `k` is not negative, so the wrap-around of negative indices
  (`index + n` when negative) leaves it alone and the clamped read of it is row `k`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Decode

open Idealize.ShloMosaic Idealize.ShloMosaic.ValueIdx

/-- Where a start index (a 32-bit word read signed) lands among `n` rows: nowhere when negative or at least `n`. -/
def landing (n : Nat) (w : BitVec 32) : Option (Fin n) :=
  if h : 0 ≤ w.toInt ∧ w.toInt < n then some ⟨w.toInt.toNat, by omega⟩ else none

/-- The row a gather reads for a start index: the index read signed and clamped into the table. -/
def rowOf (n : Nat) (hn : 0 < n) (w : BitVec 32) : Fin n := ⟨min w.toInt.toNat (n - 1), by omega⟩

/-! ## The accumulating scatter of scalars: where update `j` lands -/

section ScatterScalar

variable {n m : Nat} (d : ScatterDims ⟨1, ![n]⟩ ⟨2, ![m, 1]⟩ ⟨1, ![m]⟩)

/-- Update `j` reads its start index at row `j 0` of the index column: the one update axis is the scatter axis, and the
    index vector has the single component 0. -/
theorem siIdx_scalar (hsd : d.scatterDimsToOperandDims = [0]) (hiv : d.indexVectorDim = 1)
    (j : (⟨1, ![m]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    show c.val = 0
    have := c.isLt
    omega

/-- The window of update `j` starts at its index, read signed. -/
theorem start_scalar (hsd : d.scatterDimsToOperandDims = [0]) (hiv : d.indexVectorDim = 1)
    (idx : IVec ⟨2, ![m, 1]⟩ 32) (j : (⟨1, ![m]⟩ : Shape).Idx) (a : Fin 1) :
    d.start j idx a = (idx (ix2 (j 0) 0)).toInt := by
  have ha : a ∈ d.scatterDimsToOperandDims := by
    rw [hsd, Subsingleton.elim a 0]; exact List.mem_singleton.mpr rfl
  unfold ScatterDims.start
  rw [dif_pos ha, siIdx_scalar d hsd hiv]
  rfl

/-- The operand's one axis is inserted: an update has no window coordinate on it. -/
theorem window_scalar (hiw : d.insertedWindowDims = [0]) (j : (⟨1, ![m]⟩ : Shape).Idx) (a : Fin 1) : d.window j a = 0 := by
  have ha : a ∉ d.sKept := by
    rw [Subsingleton.elim a 0]
    simp [ScatterDims.sKept, Shape.kept, hiw]
  unfold ScatterDims.window
  rw [dif_neg ha]

/-- Update `j` lands on the row its index lands on. -/
theorem resultIdx_scalar (hiw : d.insertedWindowDims = [0]) (hsd : d.scatterDimsToOperandDims = [0]) (hiv : d.indexVectorDim = 1)
    (idx : IVec ⟨2, ![m, 1]⟩ 32) (j : (⟨1, ![m]⟩ : Shape).Idx) :
    d.resultIdx? j idx = (landing n (idx (ix2 (j 0) 0))).map ix1 := by
  have hsw : ∀ a : Fin 1, d.start j idx a + (d.window j a : Int) = (idx (ix2 (j 0) 0)).toInt := fun a => by
    rw [start_scalar d hsd hiv, window_scalar d hiw]; simp
  unfold ScatterDims.resultIdx? landing
  by_cases hw : 0 ≤ (idx (ix2 (j 0) 0)).toInt ∧ (idx (ix2 (j 0) 0)).toInt < n
  · rw [dif_pos (fun a => by rw [hsw a, Subsingleton.elim a 0]; exact hw), dif_pos hw]
    simp only [Option.map_some]
    congr 1
    funext a
    have ha : a = 0 := Subsingleton.elim _ _
    subst ha
    apply Fin.ext
    show (d.start j idx 0 + (d.window j 0 : Int)).toNat = (idx (ix2 (j 0) 0)).toInt.toNat
    rw [hsw 0]
  · rw [dif_neg (fun hall => hw (by have h0 := hall 0; rw [hsw 0] at h0; exact h0)), dif_neg hw]
    rfl

end ScatterScalar

/-! ## The accumulating scatter of rows: where update `j` lands -/

section ScatterRows

variable {n m h : Nat} (d : ScatterDims ⟨2, ![n, h]⟩ ⟨2, ![m, 1]⟩ ⟨2, ![m, h]⟩)

/-- Of the update's two axes, axis 1 is the window axis, so axis 0 is the only scatter axis. -/
theorem uScatter_rows (huw : d.updateWindowDims = [1]) (X : Fin 2) (hX : X ∈ d.uScatter) : X = 0 := by
  have hne : X ≠ 1 := by simpa [ScatterDims.uScatter, Shape.kept, huw] using hX
  have hlt : X.val < 2 := X.isLt
  have hv : X.val ≠ 1 := fun hv => hne (Fin.ext hv)
  apply Fin.ext
  show X.val = 0
  omega

/-- Update `j` reads its start index at row `j 0` of the index column. -/
theorem siIdx_rows (huw : d.updateWindowDims = [1]) (hsd : d.scatterDimsToOperandDims = [0]) (hiv : d.indexVectorDim = 1)
    (j : (⟨2, ![m, h]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 2, X ∈ d.uScatter → (j X).val = (j 0).val := fun X hX => by rw [uScatter_rows d huw X hX]
    exact e _ (List.getElem_mem _)
  | ⟨1, _⟩ =>
    unfold ScatterDims.siIdx
    rw [dif_pos (by rw [hiv])]
    apply Fin.ext
    show c.val = 0
    have := c.isLt
    omega

/-- On the table's row axis the window of update `j` starts at its index, read signed. -/
theorem start_rows0 (huw : d.updateWindowDims = [1]) (hsd : d.scatterDimsToOperandDims = [0]) (hiv : d.indexVectorDim = 1)
    (idx : IVec ⟨2, ![m, 1]⟩ 32) (j : (⟨2, ![m, h]⟩ : Shape).Idx) :
    d.start j idx 0 = (idx (ix2 (j 0) 0)).toInt := by
  have ha : (0 : Fin 2) ∈ d.scatterDimsToOperandDims := by rw [hsd]; exact List.mem_singleton.mpr rfl
  unfold ScatterDims.start
  rw [dif_pos ha, siIdx_rows d huw hsd hiv]
  rfl

/-- The feature axis is not start-indexed: the window starts at 0 there. -/
theorem start_rows1 (hsd : d.scatterDimsToOperandDims = [0]) (idx : IVec ⟨2, ![m, 1]⟩ 32) (j : (⟨2, ![m, h]⟩ : Shape).Idx) :
    d.start j idx 1 = 0 := by
  have ha : (1 : Fin 2) ∉ d.scatterDimsToOperandDims := by rw [hsd]; simp
  unfold ScatterDims.start
  rw [dif_neg ha]

/-- The row axis is inserted: no window coordinate on it. -/
theorem window_rows0 (hiw : d.insertedWindowDims = [0]) (j : (⟨2, ![m, h]⟩ : Shape).Idx) : d.window j 0 = 0 := by
  have ha : (0 : Fin 2) ∉ d.sKept := by simp [ScatterDims.sKept, Shape.kept, hiw]
  unfold ScatterDims.window
  rw [dif_neg ha]

/-- The feature axis takes the update's window coordinate, its coordinate on axis 1. -/
theorem window_rows1 (huw : d.updateWindowDims = [1]) (hiw : d.insertedWindowDims = [0]) (j : (⟨2, ![m, h]⟩ : Shape).Idx) :
    d.window j 1 = (j 1).val := by
  have ha : (1 : Fin 2) ∈ d.sKept := by simp [ScatterDims.sKept, Shape.kept, hiw]
  unfold ScatterDims.window
  rw [dif_pos ha]
  have e : ∀ X : Fin 2, X ∈ d.updateWindowDims → (j X).val = (j 1).val := fun X hX => by
    rw [huw] at hX; rw [List.mem_singleton.1 hX]
  exact e _ (List.getElem_mem _)

/-- Update `j` lands on the row its index lands on, at its own feature. -/
theorem resultIdx_rows (huw : d.updateWindowDims = [1]) (hiw : d.insertedWindowDims = [0]) (hsd : d.scatterDimsToOperandDims = [0])
    (hiv : d.indexVectorDim = 1) (idx : IVec ⟨2, ![m, 1]⟩ 32) (j : (⟨2, ![m, h]⟩ : Shape).Idx) :
    d.resultIdx? j idx
      = (landing n (idx (ix2 (j 0) 0))).map (fun r => (ix2 r (j 1) : (⟨2, ![n, h]⟩ : Shape).Idx)) := by
  have h0 : d.start j idx 0 + (d.window j 0 : Int) = (idx (ix2 (j 0) 0)).toInt := by
    rw [start_rows0 d huw hsd hiv, window_rows0 d hiw]; simp
  have h1 : d.start j idx 1 + (d.window j 1 : Int) = ((j 1).val : Int) := by
    rw [start_rows1 d hsd, window_rows1 d huw hiw]; simp
  have hj1 : ((j 1).val : Int) < (h : Int) := by exact_mod_cast (j 1).isLt
  unfold ScatterDims.resultIdx? landing
  by_cases hw : 0 ≤ (idx (ix2 (j 0) 0)).toInt ∧ (idx (ix2 (j 0) 0)).toInt < n
  · have hall : ∀ a : Fin 2, 0 ≤ d.start j idx a + (d.window j a : Int) ∧
        d.start j idx a + (d.window j a : Int) < ((⟨2, ![n, h]⟩ : Shape).size a : Int) :=
      Fin.forall_fin_two.2 ⟨by rw [h0]; exact hw, by rw [h1]; exact ⟨by omega, hj1⟩⟩
    rw [dif_pos hall, dif_pos hw]
    simp only [Option.map_some]
    congr 1
    funext a
    revert a
    refine Fin.forall_fin_two.2 ⟨?_, ?_⟩
    · apply Fin.ext
      show (d.start j idx 0 + (d.window j 0 : Int)).toNat = (idx (ix2 (j 0) 0)).toInt.toNat
      rw [h0]
    · apply Fin.ext
      show (d.start j idx 1 + (d.window j 1 : Int)).toNat = (j 1).val
      rw [h1]; simp
  · rw [dif_neg (fun hall => hw (by have a0 := hall 0; rw [h0] at a0; exact a0)), dif_neg hw]
    rfl

end ScatterRows

/-- Two rank-2 indices that are equal have equal coordinates. -/
theorem ix2_inj {n0 n1 : Nat} {a a' : Fin n0} {b b' : Fin n1} (h : ix2 a b = ix2 a' b') : a = a' ∧ b = b' :=
  ⟨congrFun h 0, congrFun h 1⟩

/-- Two rank-1 indices with the same coordinate are the same index. -/
theorem ix1_inj {n : Nat} {a b : Fin n} (h : ix1 a = ix1 b) : a = b := congrFun h 0

/-- The accumulating scatter of scalars at row `k`. -/
theorem scatterAdd_scalar {n m : Nat} (d : ScatterDims ⟨1, ![n]⟩ ⟨2, ![m, 1]⟩ ⟨1, ![m]⟩)
    (huw : d.updateWindowDims = []) (hiw : d.insertedWindowDims = [0]) (hsd : d.scatterDimsToOperandDims = [0]) (hiv : d.indexVectorDim = 1)
    (x : (⟨1, ![n]⟩ : Shape).Idx → EReal) (idx : IVec ⟨2, ![m, 1]⟩ 32) (upd : (⟨1, ![m]⟩ : Shape).Idx → EReal) (k : Fin n) :
    Host.scatterAdd (F := Ideal) (φ := .f32) d x idx upd (ix1 k)
      = x (ix1 k) + ∑ e ∈ Finset.univ.filter (fun e : Fin m => landing n (idx (ix2 e 0)) = some k), upd (ix1 e) := by
  have hmem : ∀ j : (⟨1, ![m]⟩ : Shape).Idx,
      d.resultIdx? j idx = some (ix1 k) ↔ landing n (idx (ix2 (j 0) 0)) = some k := fun j => by
    rw [resultIdx_scalar d hiw hsd hiv, Option.map_eq_some_iff]
    constructor
    · rintro ⟨a, ha, hak⟩; rw [ha, ix1_inj hak]
    · intro hl; exact ⟨k, hl, rfl⟩
  show x (ix1 k) + ∑ j ∈ Finset.univ.filter (fun j => d.resultIdx? j idx = some (ix1 k)), upd j = _
  congr 1
  -- an update index is its one coordinate: the updates that land on row k are those whose index lands there
  refine Finset.sum_bij' (fun j _ => j 0) (fun e _ => ix1 e)
    (fun j hj => Finset.mem_filter.2 ⟨Finset.mem_univ _, (hmem j).1 (Finset.mem_filter.1 hj).2⟩)
    (fun e he => Finset.mem_filter.2 ⟨Finset.mem_univ _, (hmem (ix1 e)).2 (Finset.mem_filter.1 he).2⟩)
    (fun j _ => (eq_ix1 j).symm) (fun _ _ => rfl) (fun j _ => congrArg upd (eq_ix1 j))

/-- The accumulating scatter of rows at row `k`, feature `j`. -/
theorem scatterAdd_rows {n m h : Nat} (d : ScatterDims ⟨2, ![n, h]⟩ ⟨2, ![m, 1]⟩ ⟨2, ![m, h]⟩)
    (huw : d.updateWindowDims = [1]) (hiw : d.insertedWindowDims = [0]) (hsd : d.scatterDimsToOperandDims = [0]) (hiv : d.indexVectorDim = 1)
    (x : (⟨2, ![n, h]⟩ : Shape).Idx → EReal) (idx : IVec ⟨2, ![m, 1]⟩ 32) (upd : (⟨2, ![m, h]⟩ : Shape).Idx → EReal) (k : Fin n) (j : Fin h) :
    Host.scatterAdd (F := Ideal) (φ := .f32) d x idx upd (ix2 k j)
      = x (ix2 k j) + ∑ e ∈ Finset.univ.filter (fun e : Fin m => landing n (idx (ix2 e 0)) = some k), upd (ix2 e j) := by
  have hmem : ∀ q : (⟨2, ![m, h]⟩ : Shape).Idx,
      d.resultIdx? q idx = some (ix2 k j) ↔ landing n (idx (ix2 (q 0) 0)) = some k ∧ q 1 = j := fun q => by
    rw [resultIdx_rows d huw hiw hsd hiv]
    cases hl : landing n (idx (ix2 (q 0) 0)) with
    | none => simp
    | some r =>
      simp only [Option.map_some, Option.some.injEq]
      constructor
      · intro hak; exact ix2_inj hak
      · rintro ⟨hr, hq⟩; rw [hr, hq]
  show x (ix2 k j) + ∑ q ∈ Finset.univ.filter (fun q => d.resultIdx? q idx = some (ix2 k j)), upd q = _
  congr 1
  -- an update index is (its row, its feature): the updates that land on (k, j) are feature j of the rows whose index lands on k
  refine Finset.sum_bij' (fun q _ => q 0) (fun e _ => ix2 e j)
    (fun q hq => Finset.mem_filter.2 ⟨Finset.mem_univ _, ((hmem q).1 (Finset.mem_filter.1 hq).2).1⟩)
    (fun e he => Finset.mem_filter.2 ⟨Finset.mem_univ _, (hmem (ix2 e j)).2 ⟨(Finset.mem_filter.1 he).2, rfl⟩⟩)
    (fun q hq => ?_) (fun _ _ => rfl) (fun q hq => ?_)
  · have hq1 := ((hmem q).1 (Finset.mem_filter.1 hq).2).2
    show ix2 (q 0) j = q
    rw [← hq1]; exact (eq_ix2 q).symm
  · have hq1 := ((hmem q).1 (Finset.mem_filter.1 hq).2).2
    show upd q = upd (ix2 (q 0) j)
    rw [← hq1]; exact congrArg upd (eq_ix2 q)

/-! ## The gather of rows: which table entry result index `q` reads -/

section GatherRows

variable {N n h : Nat} (d : GatherDims ⟨2, ![N, h]⟩ ⟨2, ![n, 1]⟩ ⟨2, ![n, h]⟩)

/-- Of the result's two axes, axis 1 is the offset axis, so axis 0 is the only batch axis. -/
theorem batchDims_rows (hoff : d.offsetDims = [1]) (X : Fin 2) (hX : X ∈ d.batchDims) : X = 0 := by
  have hne : X ≠ 1 := by simpa [GatherDims.batchDims, Shape.kept, hoff] using hX
  have hlt : X.val < 2 := X.isLt
  have hv : X.val ≠ 1 := fun hv => hne (Fin.ext hv)
  apply Fin.ext
  show X.val = 0
  omega

/-- Result index `q` reads its start index at row `q 0` of the index column. -/
theorem gatherSiIdx_rows (hoff : d.offsetDims = [1]) (hsim : d.startIndexMap = [0]) (hivd : d.indexVectorDim = 1)
    (q : (⟨2, ![n, h]⟩ : Shape).Idx) (c : Fin d.startIndexMap.length) : d.siIdx q c = ix2 (q 0) 0 := by
  have hl : d.startIndexMap.length = 1 := by rw [hsim]; rfl
  funext b
  match b with
  | ⟨0, _⟩ =>
    unfold GatherDims.siIdx
    rw [dif_neg (by rw [hivd]; simp)]
    unfold GatherDims.siCoord
    apply Fin.ext
    simp only [Fin.val_cast]
    have e : ∀ X : Fin 2, X ∈ d.batchDims → (q X).val = (q 0).val := fun X hX => by rw [batchDims_rows d hoff X hX]
    exact e _ (List.getElem_mem _)
  | ⟨1, _⟩ =>
    unfold GatherDims.siIdx
    rw [dif_pos (by rw [hivd])]
    apply Fin.ext
    show c.val = 0
    have := c.isLt
    omega

/-- Result index `q` reads the table at (its start index clamped into the table, its own feature): the row axis is
    collapsed and start-indexed with a slice of one row, the feature axis is the offset axis and starts at 0. -/
theorem operandIdx_rows (hoff : d.offsetDims = [1]) (hcoll : d.collapsedSliceDims = [0]) (hob : d.operandBatchingDims = [])
    (hsim : d.startIndexMap = [0]) (hivd : d.indexVectorDim = 1) (hss : d.sliceSizes = ![1, h])
    (idx : IVec ⟨2, ![n, 1]⟩ 32) (q : (⟨2, ![n, h]⟩ : Shape).Idx) (hN : 0 < N) :
    d.operandIdx q idx = (ix2 (rowOf N hN (idx (ix2 (q 0) 0))) (q 1) : (⟨2, ![N, h]⟩ : Shape).Idx) := by
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := by rw [hss]; rfl
  funext a
  revert a
  refine Fin.forall_fin_two.2 ⟨?_, ?_⟩
  · apply Fin.ext
    show d.start q idx 0 + d.batchCoord q 0 + d.offCoord q 0 = min (idx (ix2 (q 0) 0)).toInt.toNat (N - 1)
    rw [GatherDims.batchCoord_eq_zero _ _ _ (hb 0), GatherDims.offCoord_eq_zero _ _ _ hk0]
    simp only [Nat.add_zero]
    unfold GatherDims.start
    rw [dif_pos hm0, gatherSiIdx_rows d hoff hsim hivd, hsl]
    rfl
  · apply Fin.ext
    show d.start q idx 1 + d.batchCoord q 1 + d.offCoord q 1 = (q 1).val
    rw [GatherDims.batchCoord_eq_zero _ _ _ (hb 1)]
    unfold GatherDims.start GatherDims.offCoord
    rw [dif_neg hm1, dif_pos hk1]
    simp only [Nat.add_zero, Nat.zero_add]
    have e : ∀ X : Fin 2, X ∈ d.offsetDims → (q X).val = (q 1).val := fun X hX => by
      rw [hoff] at hX; rw [List.mem_singleton.1 hX]
    exact e _ (List.getElem_mem _)

end GatherRows

/-- The gather of scalars at result row `e`. -/
theorem gather_scalar {α : Type} {N n : Nat} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (idx : IVec ⟨2, ![n, 1]⟩ 32) (e : Fin n) (hN : 0 < N) :
    Host.gather d x idx (ix1 e) = x (ix1 (rowOf N hN (idx (ix2 e 0)))) := by
  -- the take-shaped gather read at one position, its rank-1 index and its index-column row written by coordinates
  have h1 : ∀ {q : Nat} (p : Fin q), (Shape.Idx.ofFin p : (⟨1, ![q]⟩ : Shape).Idx) = ix1 p := fun p => by
    funext a; match a with | ⟨0, _⟩ => rfl
  have h2 : StableHlo.Predicate.ixP e = ix2 e 0 := by
    funext a; match a with | ⟨0, _⟩ => rfl | ⟨1, _⟩ => rfl
  rw [← h1 e, ← h2]
  exact (StableHlo.Predicate.gather_take d hcoll hob hsim hivd x idx e hN).trans (congrArg x (h1 _))

/-- The gather of rows at result row `e`, feature `j`. -/
theorem gather_rows {α : Type} {N n h : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsb : d.startIndicesBatchingDims = []) (hsim : d.startIndexMap = [0]) (hivd : d.indexVectorDim = 1) (hss : d.sliceSizes = ![1, h])
    (x : (⟨2, ![N, h]⟩ : Shape).Idx → α) (idx : IVec ⟨2, ![n, 1]⟩ 32) (e : Fin n) (j : Fin h) (hN : 0 < N) :
    Host.gather d x idx (ix2 e j) = x (ix2 (rowOf N hN (idx (ix2 e 0))) j) := by
  show x (d.operandIdx (ix2 e j) idx) = _
  rw [operandIdx_rows d hoff hcoll hob hsim hivd hss idx (ix2 e j) hN]
  rfl

/-- An index lands on row `k` exactly when it is the word of `k`. -/
theorem landing_eq_some_iff {n : Nat} (hn : n ≤ 2 ^ 31) (w : BitVec 32) (k : Fin n) :
    landing n w = some k ↔ w = BitVec.ofNat 32 k.val := by
  have hk := k.isLt
  have hwlt := w.isLt
  unfold landing
  constructor
  · intro h
    split at h
    · rename_i hw
      -- the landing row's number is the index read signed; a word below 2^31 reads the same signed and unsigned
      have hv : w.toInt.toNat = k.val := congrArg Fin.val (Option.some.inj h)
      have hc := BitVec.toInt_eq_toNat_cond w
      apply BitVec.eq_of_toNat_eq
      rw [BitVec.toNat_ofNat, Nat.mod_eq_of_lt (by omega)]
      split at hc <;> omega
    · exact absurd h (by simp)
  · intro h
    subst h
    have htn : (BitVec.ofNat 32 k.val).toNat = k.val := by
      rw [BitVec.toNat_ofNat]; exact Nat.mod_eq_of_lt (by omega)
    have hti : (BitVec.ofNat 32 k.val).toInt = (k.val : Int) := by
      rw [BitVec.toInt_eq_toNat_cond, htn, if_pos (by omega)]
    rw [dif_pos ⟨by omega, by omega⟩]
    congr 1
    apply Fin.ext
    show (BitVec.ofNat 32 k.val).toInt.toNat = k.val
    omega

/-- An index that lands on row `k` is not negative: wrapping negative indices around leaves it alone, and the clamped
    read of it is row `k`. -/
theorem rowOf_wrap_of_landing {n : Nat} (hn : 0 < n) (hn' : n < 2 ^ 31) (w : BitVec 32) (k : Fin n) (h : landing n w = some k) :
    rowOf n hn (Scalar.select (Scalar.cmpi .slt w 0#32) (w + BitVec.ofNat 32 n) w) = k := by
  unfold landing at h
  split at h
  · rename_i hw
    have hk : w.toInt.toNat = k.val := congrArg Fin.val (Option.some.inj h)
    -- a landing index is not below zero, so the signed comparison with zero fails and the select keeps the index
    have hs : w.slt 0#32 = false := by
      simp only [BitVec.slt, BitVec.toInt_zero, decide_eq_false_iff_not, not_lt]
      exact hw.1
    have hc : Scalar.cmpi .slt w 0#32 = 0#1 := by
      show BitVec.ofBool (w.slt 0#32) = 0#1
      rw [hs]; rfl
    rw [hc, select_zero]
    apply Fin.ext
    show min w.toInt.toNat (n - 1) = k.val
    omega
  · exact absurd h (by simp)

end Cert.Decode

end
-- ==== Proof.RefValue.lean ====
/-
  The reference's result is the sum of the table's rows by key.

  The reference scatters the rows of `H` into a zero table of 100,000 rows, adding row `e` to the row its key lands on
  (a key read signed, dropped when negative or at least 100,000). A key lands on row `v` exactly when it is the word of
  `v`, so entry `(v, d)` of the result is zero plus the sum of `H (e, d)` over the rows keyed `v`.
-/
import proofs.«401794_j13288628814370_2_alg».proof.Proof.Gen.ReferenceIdeal.Read
import proofs.«401794_j13288628814370_2_alg».proof.Proof.LibScatterGather
import proofs.«401794_j13288628814370_2_alg».proof.Proof.Spec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Decode

/-- The key column the scatter reads, at row `e`, is the key of row `e`. -/
theorem keyColumn_apply (X : IVec S2000000 32) (e : Fin 2000000) :
    val_main_v1 (F := Ideal) X (ix2 e 0) = X (ix1 e) := by
  rw [val_main_v1_apply]
  exact congrArg X (funext fun a => by match a with | ⟨0, _⟩ => rfl)

/-- The table the scatter adds into is zero everywhere. -/
theorem zeroTable_apply (i : S100000x64.Idx) : val_main_v0 (F := Ideal) i = 0 := by
  rw [val_main_v0_apply, val_main_cst_apply, Ideal.ofBits_def, Ideal.ofBits_zero_f32]

/-- The reference's result, as the run states it, is the sum of the rows by key. -/
theorem result_eq (H : FVec Ideal S2000000x64 .f32) (X : IVec S2000000 32) :
    val_main_v2 (F := Ideal) H X = Cert.Spec.segSum H X := by
  funext i
  obtain ⟨v, d, rfl⟩ : ∃ (v : Fin 100000) (d : Fin 64), i = ix2 v d := ⟨i 0, i 1, eq_ix2 i⟩
  unfold val_main_v2
  rw [scatterAdd_rows scatter_S100000x64_S2000000x1_S2000000x64_1_0_0_1 rfl rfl rfl rfl, zeroTable_apply, zero_add,
    Cert.Spec.segSum_apply]
  refine Finset.sum_congr ?_ fun _ _ => rfl
  unfold Cert.Spec.rowsOf
  ext e
  simp only [Finset.mem_filter, Finset.mem_univ, true_and]
  rw [landing_eq_some_iff (by norm_num) _ v, keyColumn_apply]

end Cert.ReferenceIdeal.RefValue

end
-- ==== Proof.lean ====
/-
  The kernel sums the rows of a table by key, and so does the reference.

  Inputs: a table `H` of 2,000,000 rows of 64 numbers and a key `X e` (a 32-bit word) for every row `e`. Result: 100,000
  rows of 64 numbers; entry `(v, d)` is the sum of `H (e, d)` over the rows `e` whose key is the word of `v`
  (Proof/Spec.lean, `segSum`), over the extended reals.

  The reference scatters the rows into a zero table, adding row `e` to the row its key lands on; a key lands on `v`
  exactly when it is the word of `v` (Proof/RefValue.lean).

  The kernel pads the table with zero rows and the keys with the word -1 to 2,002,944 rows, and runs a 25 × 489 grid:
  point (tile, step) multiplies the transposed block of 4096 rows of the step with the 0/1 matrix "key of row k is the
  word of column tile · 4096 + j" and adds the product into the tile's [64, 4096] block, which is zeroed at the tile's
  first step and written back after its last. One chunk of 256 columns at an index is what was there plus a sum of
  entries times 0/1 weights (Proof/Chunk.lean); a point's sixteen chunks make one function of its block's index
  (Proof/PointA.lean, Proof/PointB.lean); over the 489 steps of a tile the block accumulates the sum over all padded rows
  (Proof/Accum.lean, over Proof/HostIn.lean for what a block of the padded arrays holds); the written-back blocks tile
  the [64, 102400] array, whose first 100,000 columns, transposed, are the result (Proof/Final.lean). A padded row
  contributes zero, an entry times the weight one is the entry and times the weight zero is zero — also for an infinite
  entry, so no finiteness is used — and so the weighted sum over the padded rows is the sum over the rows with that
  key (Proof/Agg.lean).

  The frames of the two kernel programs are the generated ones; the reference's frame is its generated run with the
  result dropped; the ideal pass rewrote nothing.
-/
import proofs.«401794_j13288628814370_2_alg».proof.Defs
import proofs.«401794_j13288628814370_2_alg».proof.Proof.Gen.Kernel
import proofs.«401794_j13288628814370_2_alg».proof.Proof.Gen.Kernel.Skeleton
import proofs.«401794_j13288628814370_2_alg».proof.Proof.Gen.Kernel.Launch
import proofs.«401794_j13288628814370_2_alg».proof.Proof.Gen.Kernel.Points
import proofs.«401794_j13288628814370_2_alg».proof.Proof.Gen.Kernel.Frame
import proofs.«401794_j13288628814370_2_alg».proof.Proof.Gen.KernelIdeal
import proofs.«401794_j13288628814370_2_alg».proof.Proof.Gen.KernelIdeal.Skeleton
import proofs.«401794_j13288628814370_2_alg».proof.Proof.Gen.KernelIdeal.Launch
import proofs.«401794_j13288628814370_2_alg».proof.Proof.Gen.KernelIdeal.Points
import proofs.«401794_j13288628814370_2_alg».proof.Proof.Gen.KernelIdeal.Frame
import proofs.«401794_j13288628814370_2_alg».proof.Proof.Gen.ReferenceIdeal
import proofs.«401794_j13288628814370_2_alg».proof.Proof.Gen.ReferenceIdeal.Run
import proofs.«401794_j13288628814370_2_alg».proof.Proof.Gen.ReferenceIdeal.Read
import proofs.«401794_j13288628814370_2_alg».proof.Proof.Gen.Pre_finite_inputs
import proofs.«401794_j13288628814370_2_alg».proof.Proof.Final
import proofs.«401794_j13288628814370_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the sum of the table's rows by key: the kernel's run ends at its padded weighted totals, sliced
    and transposed, which are that sum; the reference's run ends at its scatter, which is that sum. -/
theorem algebraic : Cert.algebraic_KernelIdeal_ReferenceIdeal := by
  intro m ρ m' ρ' _ hagree
  refine ⟨fun c => Cert.Agg.resultOf (Cert.KernelIdeal.Val.Harg m c) (Cert.KernelIdeal.Val.Xarg m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]
  exact (Cert.Agg.resultOf_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
